-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x8192 : Shape := ⟨2, ![2, 8192]⟩
abbrev S2x512x3 : Shape := ⟨3, ![2, 512, 3]⟩
abbrev S2x1024x3 : Shape := ⟨3, ![2, 1024, 3]⟩
abbrev S2x512 : Shape := ⟨2, ![2, 512]⟩
abbrev S2x1024 : Shape := ⟨2, ![2, 1024]⟩
abbrev S2x512x1024 : Shape := ⟨3, ![2, 512, 1024]⟩
abbrev S2x512x1 : Shape := ⟨3, ![2, 512, 1]⟩
abbrev S2x1x1024 : Shape := ⟨3, ![2, 1, 1024]⟩
abbrev S_ : Shape := ⟨0, ![]⟩
abbrev S2 : Shape := ⟨1, ![2]⟩

abbrev nBuf : Space → Nat
  | .hbm => 21
  | .vmem => 14
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S2x8192, .f32⟩
  | .hbm, ⟨4, _⟩ => ⟨S_, .f32⟩
  | .hbm, ⟨5, _⟩ => ⟨S2, .f32⟩
  | .hbm, ⟨6, _⟩ => ⟨S_, .f32⟩
  | .hbm, ⟨7, _⟩ => ⟨S2, .f32⟩
  | .hbm, ⟨8, _⟩ => ⟨S2, .f32⟩
  | .hbm, ⟨9, _⟩ => ⟨S_, .f32⟩
  | .hbm, ⟨10, _⟩ => ⟨S2, .f32⟩
  | .hbm, ⟨11, _⟩ => ⟨S_, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S2x512x3, .f32⟩
  | .local _ .vmem, ⟨1, _⟩ => ⟨S2x512x3, .f32⟩
  | .local _ .vmem, ⟨2, _⟩ => ⟨S2x1024x3, .f32⟩
  | .local _ .vmem, ⟨3, _⟩ => ⟨S2x1024x3, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x512x3, .f32⟩
  | .local _ .vmem, ⟨8, _⟩ => ⟨S2x512x3, .f32⟩
  | .local _ .vmem, ⟨9, _⟩ => ⟨S2x1024x3, .f32⟩
  | .local _ .vmem, ⟨10, _⟩ => ⟨S2x1024x3, .f32⟩
  | .local _ .vmem, ⟨11, _⟩ => ⟨S2x512, .f32⟩
  | .local _ .vmem, ⟨12, _⟩ => ⟨S2x512, .f32⟩
  | .local _ .vmem, ⟨13, _⟩ => ⟨S2x512, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_15 : BitVec 32 := 0#32
  let v30 : BitVec 1 := Scalar.cmpi .ne v29 c0_i32_15
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2x512_S2x512_0_0 : ∀ a, (![0, 0] : Fin 2 → Nat) a + S2x512.size a ≤ S2x512.size a
  h_S2x512 : 0 < S2x512.numel
  shapeCasts_S2x512_S2x512 : S2x512.ShapeCasts S2x512
  inb_S2x512x3_S2x512x3_0_0_0 : ∀ a, (![0, 0, 0] : Fin 3 → Nat) a + S2x512x3.size a ≤ S2x512x3.size a
  h_S2x512x3 : 0 < S2x512x3.numel
  inb_S2x1024x3_S2x1024x3_0_0_0 : ∀ a, (![0, 0, 0] : Fin 3 → Nat) a + S2x1024x3.size a ≤ S2x1024x3.size a
  h_S2x1024x3 : 0 < S2x1024x3.numel
  bitsLt_bf16_f32 : FTy.bits .bf16 < FTy.bits .f32
  reduces_S2x512x3_S2x512 : S2x512x3.Reduces [2] S2x512
  reduces_S2x1024x3_S2x1024 : S2x1024x3.Reduces [2] S2x1024
  shapeCasts_S2x512_S2x512x1 : S2x512.ShapeCasts S2x512x1
  shapeCasts_S2x1024_S2x1x1024 : S2x1024.ShapeCasts S2x1x1024
  broadcasts_S2x512x1_S2x512x1024 : S2x512x1.Broadcasts S2x512x1024
  broadcasts_S2x1x1024_S2x512x1024 : S2x1x1024.Broadcasts S2x512x1024
  reduces_S2x512x1024_S2x512 : S2x512x1024.Reduces [2] S2x512
  reducesTo_S2x8192_S2_d1 : S2x8192.ReducesTo [1] S2
  h_S_ : 0 < S_.numel
  bcast_S_S2 : S_.BroadcastsInDim S2 (![] : Fin 0 → Fin S2.rank)
  reducesTo_S2_S_d0 : S2.ReducesTo [0] S_
  dot_S2x512x3_S2x1024x3_S2x512x1024_2_2_1_1_0_0_wf : DotDims.WF S2x512x3 S2x1024x3 S2x512x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x3.size a ≤ S2x8192x3.size a
  hwx0_0 : ∀ i : grid0.Coords, EltTy.bits .f32 = 32 ∨ (Rect.block (s := S2x8192x3) S2x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x3.size a ≤ S2x8192x3.size a
  hwx0_1 : ∀ i : grid0.Coords, EltTy.bits .f32 = 32 ∨ (Rect.block (s := S2x8192x3) S2x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x8192.size a
  hwx0_2 : ∀ i : grid0.Coords, EltTy.bits .f32 = 32 ∨ (Rect.block (s := S2x8192) S2x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x3.size a ≤ S2x8192x3.size a
  hwx1_0 : ∀ i : grid1.Coords, EltTy.bits .f32 = 32 ∨ (Rect.block (s := S2x8192x3) S2x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1024x3.size a ≤ S2x8192x3.size a
  hwx1_1 : ∀ i : grid1.Coords, EltTy.bits .f32 = 32 ∨ (Rect.block (s := S2x8192x3) S2x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512.size a ≤ S2x8192.size a
  hwx1_2 : ∀ i : grid1.Coords, EltTy.bits .f32 = 32 ∨ (Rect.block (s := S2x8192) S2x512.size (cc1_transform_2 i) (hinb1_2 i)).WholeWords (EltTy.packing .f32)

variable [Facts₀]

def dot_S2x512x3_S2x1024x3_S2x512x1024_2_2_1_1_0_0 : DotDims S2x512x3 S2x1024x3 S2x512x1024 where
  lhsContracting := [2]
  rhsContracting := [2]
  lhsNonContracting := [1]
  rhsNonContracting := [1]
  lhsBatch := [0]
  rhsBatch := [0]
  wf := dot_S2x512x3_S2x1024x3_S2x512x1024_2_2_1_1_0_0_wf

abbrev win0_0 : Pipeline.Window sig grid0 :=
  Pipeline.Window.ofSpec (Memref.whole main_arg0) S2x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S2x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩
abbrev S2 : Shape := ⟨1, ![2]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S_, .f32⟩
  | .hbm, ⟨3, _⟩ => ⟨S2x8192x3, .f32⟩
  | .hbm, ⟨4, _⟩ => ⟨S2x8192x3, .f32⟩
  | .hbm, ⟨5, _⟩ => ⟨S_, .f32⟩
  | .hbm, ⟨6, _⟩ => ⟨S2x8192x3, .f32⟩
  | .hbm, ⟨7, _⟩ => ⟨S2x8192x3, .f32⟩
  | .hbm, ⟨8, _⟩ => ⟨S2x8192x3, .f32⟩
  | .hbm, ⟨9, _⟩ => ⟨S_, .f32⟩
  | .hbm, ⟨10, _⟩ => ⟨S2x8192, .f32⟩
  | .hbm, ⟨11, _⟩ => ⟨S2x8192x3, .f32⟩
  | .hbm, ⟨12, _⟩ => ⟨S_, .f32⟩
  | .hbm, ⟨13, _⟩ => ⟨S2x8192, .f32⟩
  | .hbm, ⟨14, _⟩ => ⟨S2x8192x8192, .f32⟩
  | .hbm, ⟨15, _⟩ => ⟨S2x8192x1, .f32⟩
  | .hbm, ⟨16, _⟩ => ⟨S2x1x8192, .f32⟩
  | .hbm, ⟨17, _⟩ => ⟨S2x8192x8192, .f32⟩
  | .hbm, ⟨18, _⟩ => ⟨S2x8192x8192, .f32⟩
  | .hbm, ⟨19, _⟩ => ⟨S2x8192x8192, .f32⟩
  | .hbm, ⟨20, _⟩ => ⟨S_, .f32⟩
  | .hbm, ⟨21, _⟩ => ⟨S2x8192x8192, .f32⟩
  | .hbm, ⟨22, _⟩ => ⟨S2x8192x8192, .f32⟩
  | .hbm, ⟨23, _⟩ => ⟨S2x8192x8192, .f32⟩
  | .hbm, ⟨24, _⟩ => ⟨S_, .f32⟩
  | .hbm, ⟨25, _⟩ => ⟨S2x8192x8192, .f32⟩
  | .hbm, ⟨26, _⟩ => ⟨S2x8192x8192, .f32⟩
  | .hbm, ⟨27, _⟩ => ⟨S_, .f32⟩
  | .hbm, ⟨28, _⟩ => ⟨S2x8192, .f32⟩
  | .hbm, ⟨29, _⟩ => ⟨S_, .f32⟩
  | .hbm, ⟨30, _⟩ => ⟨S2x8192, .f32⟩
  | .hbm, ⟨31, _⟩ => ⟨S_, .f32⟩
  | .hbm, ⟨32, _⟩ => ⟨S2, .f32⟩
  | .hbm, ⟨33, _⟩ => ⟨S_, .f32⟩
  | .hbm, ⟨34, _⟩ => ⟨S2, .f32⟩
  | .hbm, ⟨35, _⟩ => ⟨S2, .f32⟩
  | .hbm, ⟨36, _⟩ => ⟨S_, .f32⟩
  | .hbm, ⟨37, _⟩ => ⟨S2, .f32⟩
  | .hbm, ⟨38, _⟩ => ⟨S_, .f32⟩
  | .hbm, ⟨39, _⟩ => ⟨S2, .f32⟩
  | .hbm, ⟨40, _⟩ => ⟨S2, .f32⟩
  | .hbm, ⟨41, _⟩ => ⟨S2, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩
abbrev main_cst_12 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S2x8192x3 : S_.BroadcastsInDim S2x8192x3 (![] : Fin 0 → Fin S2x8192x3.rank)
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S2_d1 : S2x8192.ReducesTo [1] S2
  bcast_S_S2 : S_.BroadcastsInDim S2 (![] : Fin 0 → Fin S2.rank)
  reducesTo_S2_S_d0 : S2.ReducesTo [0] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Zeros.lean ====
/- Two spellings of the all-zero offset vector: a load or store of a whole buffer goes through the rectangle at these
   offsets, and reading such a rectangle back is reading the buffer. -/
import Mathlib.Data.Fin.VecNotation

namespace Cert.Hand

theorem zeros2 : (![0, 0] : Fin 2 → Nat) = fun _ => 0 :=
  funext fun a => match a with | ⟨0, _⟩ => rfl | ⟨1, _⟩ => rfl
theorem zeros3 : (![0, 0, 0] : Fin 3 → Nat) = fun _ => 0 :=
  funext fun a => match a with | ⟨0, _⟩ => rfl | ⟨1, _⟩ => rfl | ⟨2, _⟩ => rfl

end Cert.Hand
-- ==== Proof.Bits.Body0.lean ====
import proofs.«170469_j84043920048708_1_alg».proof.Proof.Gen.Kernel.Launch
import proofs.«170469_j84043920048708_1_alg».proof.Proof.Gen.Kernel.Skeleton
import proofs.«170469_j84043920048708_1_alg».proof.Proof.Gen.Kernel.Points
import proofs.«170469_j84043920048708_1_alg».proof.Proof.Zeros
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the kernel body, case by case

The body keeps, in its scratch buffer, a running minimum over the key blocks of one row of the grid. Its two guards
depend only on the second grid coordinate, so a point is in one of three cases: it RESETS the scratch to +∞ first
(coordinate 0), it only UPDATES the scratch (coordinates 1 to 6), or it updates and then COPIES the scratch to its output
block (coordinate 7). In each case the body, run on whole buffers holding `x0` (query rows), `x1` (key rows), `xo`
(output block) and `a` (scratch), leaves the inputs as they were and the scratch at the update `k0_pay2 x0 x1 ·` of
what it started from: a store through the whole-buffer rectangle leaves its payload, and a load through it reads the
contents. -/

/-- The body resets its running minimum when the second grid coordinate is 0. -/
abbrev resetCond0 (i : grid0.Coords) : Prop := (Scalar.cmpi .ne (Scalar.extui (Scalar.cmpi .eq (BitVec.ofNat 32 (i 1).val) 0#32)) 0#32) = 1#1
/-- It copies the running minimum to its output block when the second grid coordinate is 7, the last. -/
abbrev emitCond0 (i : grid0.Coords) : Prop := k0_cond2 i = 1#1

set_option maxHeartbeats 1000000 in
theorem run_reset0 (c : Dev nD) (E : Set ℕ) (i : grid0.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : resetCond0 i) (hc1 : ¬emitCond0 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (xo) ∗ owns (c : Thread nD τ) arg5 fullShare (k0_pay2 x0 x1 k0_pay1)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (fun y => ⟨_, List.Mem.head _, View.mem_set_unit_zero (S := S2x512) zeros2 Facts₀.inb_S2x512_S2x512_0_0 y⟩), View.canon_cons_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

set_option maxHeartbeats 1000000 in
theorem run_mid0 (c : Dev nD) (E : Set ℕ) (i : grid0.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : ¬resetCond0 i) (hc1 : ¬emitCond0 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (xo) ∗ owns (c : Thread nD τ) arg5 fullShare (k0_pay2 x0 x1 a)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  rw [View.read_writes_eq_canon _ _ _ (fun y => ⟨_, List.Mem.head _, View.mem_set_unit_zero (S := S2x512) zeros2 Facts₀.inb_S2x512_S2x512_0_0 y⟩), View.canon_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

set_option maxHeartbeats 1000000 in
theorem run_emit0 (c : Dev nD) (E : Set ℕ) (i : grid0.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : ¬resetCond0 i) (hc1 : emitCond0 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (k0_pay2 x0 x1 a) ∗ owns (c : Thread nD τ) arg5 fullShare (k0_pay2 x0 x1 a)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.Mem.head _, View.mem_set_unit_zero (S := S2x512) zeros2 Facts₀.inb_S2x512_S2x512_0_0 y⟩), View.canon_unit_zero (S := S2x512) zeros2]
    simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]
  iexists _; isplitr
  swap; · iexact H3
  ipureintro
  sl_unfold_words
  rw [View.read_writes_eq_canon _ _ _ (fun y => ⟨_, List.Mem.head _, View.mem_set_unit_zero (S := S2x512) zeros2 Facts₀.inb_S2x512_S2x512_0_0 y⟩), View.canon_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

end Cert.Kernel.Hand

end
-- ==== Proof.Bits.Data0.lean ====
import proofs.«170469_j84043920048708_1_alg».proof.Proof.Gen.Kernel.Launch
import proofs.«170469_j84043920048708_1_alg».proof.Proof.Gen.Kernel.Skeleton
import proofs.«170469_j84043920048708_1_alg».proof.Proof.Gen.Kernel.Points
import proofs.«170469_j84043920048708_1_alg».proof.Proof.Bits.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each grid point leaves, and the body at every point

The grid is 16 × 8, row-major: point `t` has first coordinate `t / 8` (which block of 512 query rows) and second
coordinate `t % 8` (which block of 1024 key rows). The scratch buffer carries, for each of the 2 × 512 query rows of the
current block, the least clamped squared distance to the key rows seen so far; it is reset where `t % 8 = 0` and copied
to the output block where `t % 8 = 7`. Everything here is stated at a parameter `V`, the buffers' contents when the
region is entered. -/

variable (V : (c : Dev nD) → (b : Ref sig .tc) → Buf (Elt F) ((c : Thread nD τ).loc b))

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 2 × 512 query rows at point `t`, -/
abbrev qblk0 (c : Dev nD) (t : Fin cfg0.N) : Vec F S2x512x3 .f32 := iblk0 V c 0 t
/-- and the block of 2 × 1024 key rows. -/
abbrev kblk0 (c : Dev nD) (t : Fin cfg0.N) : Vec F S2x1024x3 .f32 := iblk0 V c 1 t

/-- An input window's staging buffer holds its block at every point, fetched there or not: the body leaves it in place,
    and where the pipeline does not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running minimum, point by point -/

/-- What the scratch buffer holds after the body at point `n`: the body's update of the two blocks there, over the
    reset value where the point resets and over what the point before left elsewhere. -/
def acc0 (c : Dev nD) : (n : ℕ) → n < cfg0.N → Vec F S2x512 .f32
  | 0, hn => k0_pay2 (qblk0 V c ⟨0, hn⟩) (kblk0 V c ⟨0, hn⟩) k0_pay1
  | n + 1, hn =>
    if (n + 1) % 8 = 0 then k0_pay2 (qblk0 V c ⟨n + 1, hn⟩) (kblk0 V c ⟨n + 1, hn⟩) k0_pay1
    else k0_pay2 (qblk0 V c ⟨n + 1, hn⟩) (kblk0 V c ⟨n + 1, hn⟩) (acc0 c n (Nat.lt_of_succ_lt hn))

theorem acc0_reset (c : Dev nD) (t : Fin cfg0.N) (h : t.val % 8 = 0) :
    acc0 V c t.val t.isLt = k0_pay2 (qblk0 V c t) (kblk0 V c t) k0_pay1 := by
  obtain ⟨n, hn⟩ := t
  cases n with
  | zero => rfl
  | succ n => exact if_pos h

theorem acc0_step (c : Dev nD) (t : Fin cfg0.N) (h : ¬t.val % 8 = 0) :
    acc0 V c t.val t.isLt
      = k0_pay2 (qblk0 V c t) (kblk0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch operand: a whole scoped buffer of the kernel's own. -/
abbrev scM0 : Memref sig .tc .vmem S2x512 .f32 := Memref.whole cc0_scratch0

/-- The core's other scoped buffers that are no staging buffer of this region, at some contents each. -/
def others0 (c : Dev nD) : sProp 𝕄 :=
  Pipeline.scopedRestBut (Ix := Unit) (Name := ℕ) (U := UR sig nD τ) (Lvl := ℕ) (Val := Elt F) spec0 c [cc0_scratch0]

/-- What the region is handed: the scratch at some contents, the other scoped buffers, the generator register. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [bigSepL_singleton, scM0, owns_whole]
  try rfl

/-- Before point `n`: at the first point what the region was handed; afterwards the scratch at what the point before
    left in it, beside the other scoped buffers and the generator register. -/
def Inv0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Inv0_zero (c : Dev nD) (n : ℕ) (h : n ≤ cfg0.N) (hz : n = 0) : Inv0 V c n h = Pipeline.ΦA spec0 c := by
  subst hz; rfl

theorem Inv0_succ (c : Dev nD) (n : ℕ) (hn : n < cfg0.N) :
    Inv0 V c (n + 1) hn = iprop(iprop(owns (c : Thread nD τ) scM0 fullShare (acc0 V c n hn) ∗ others0 c) ∗ (∃ r, prngReg c r)) := rfl

theorem Inv0_pos (c : Dev nD) (n : ℕ) (h : n ≤ cfg0.N) (hz : n ≠ 0) :
    Inv0 V c n h = iprop(iprop(owns (c : Thread nD τ) scM0 fullShare (acc0 V c (n - 1) (by omega)) ∗ others0 c) ∗ (∃ r, prngReg c r)) := by
  cases n with
  | zero => exact absurd rfl hz
  | succ n => rfl

/-- At any point the invariant holds the scratch at SOME contents. -/
theorem Inv0_some (c : Dev nD) (n : ℕ) (h : n ≤ cfg0.N) :
    Inv0 V c n h ⊢ iprop(iprop((∃ d, owns (c : Thread nD τ) scM0 fullShare d) ∗ others0 c) ∗ (∃ r, prngReg c r)) := by
  cases n with
  | zero => rw [Inv0_zero V c 0 h rfl, PhiA0_eq]
  | succ n =>
    rw [Inv0_succ]
    iintro ⟨⟨HS, Ho⟩, Hg⟩
    isplitl [HS Ho]
    · isplitl [HS]
      · iexists _; iexact HS
      iexact Ho
    iexact Hg

/-! ## The proof data -/

/-- The region's proof data on core `c`: the arrays as found; after the body each input's buffer at its block and the
    output's at the running minimum (read only where the point copies it out); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem Phi0_castSucc (c : Dev nD) (t : Fin cfg0.N) :
    (dat0 V c).Φ t.castSucc = Inv0 V c t.val (Nat.le_of_lt t.isLt) := by
  dsimp only [dat0]; simp only [Fin.coe_castSucc]

/-! ## The guards over the grid, and where the output window is idle -/

theorem resetCond0_iff : ∀ t : Fin cfg0.N, resetCond0 (grid0.coords t) ↔ t.val % 8 = 0 :=
  (by decide +kernel : ∀ t : Fin grid0.N, resetCond0 (grid0.coords t) ↔ t.val % 8 = 0)
theorem emitCond0_iff : ∀ t : Fin cfg0.N, emitCond0 (grid0.coords t) ↔ t.val % 8 = 7 :=
  (by decide +kernel : ∀ t : Fin grid0.N, emitCond0 (grid0.coords t) ↔ t.val % 8 = 7)

/-- The input windows are never idle. -/
theorem live0_0 (t : Fin cfg0.N) : cfg0.idle 0 (grid0.coords t) = false := rfl
theorem live0_1 (t : Fin cfg0.N) : cfg0.idle 1 (grid0.coords t) = false := rfl
/-- The output window is idle exactly where the body does not copy the running minimum out, and there it is not written back. -/
theorem idle0_2 : ∀ t : Fin cfg0.N, ¬t.val % 8 = 7 → cfg0.idle 2 (grid0.coords t) = true := by decide +kernel
theorem live0_2 : ∀ t : Fin cfg0.N, t.val % 8 = 7 → cfg0.idle 2 (grid0.coords t) = false := by decide +kernel
theorem noflush0_2 (t : Fin cfg0.N) (h : ¬t.val % 8 = 7) : (cfg0.win 2).flush t = false := by
  cases hf : (cfg0.win 2).flush t with
  | false => rfl
  | true => exact absurd ((flush0_2 t).mp hf) h

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point, by the point's position in its row of 8: the first resets (whatever the scratch held), the
    last also copies out, the others only update; the invariant hands over the scratch at what the point before left and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Inv0 V c (t.val + 1) t.isLt from rfl, Inv0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  by_cases h0 : t.val % 8 = 0
  · have h7 : ¬t.val % 8 = 7 := by omega
    rw [Dat.leavesExact_idle (dat0 V c) 2 t (idle0_2 t h7) (noflush0_2 t h7), acc0_reset V c t h0, Phi0_castSucc V c t]
    iintro ⟨HΦ, Ho, ⟨%d0, H0⟩, ⟨%d1, H1⟩, ⟨%d2, H2⟩⟩
    ihave HΦ' := (Inv0_some V c _ _) $$ HΦ
    icases HΦ' with ⟨⟨⟨%a, HS⟩, Hoth⟩, Hg⟩
    iapply (run_reset0 c Set.univ (grid0.coords t) _ _ _ _ _ _ _ _ ((resetCond0_iff t).mpr h0) (fun h => h7 ((emitCond0_iff t).mp h)) (qblk0 V c t) (kblk0 V c t) _ a _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun h => h0 (by rw [h])
    rw [acc0_step V c t h0, Phi0_castSucc V c t, Inv0_pos V c _ _ hz]
    by_cases h7 : t.val % 8 = 7
    · rw [show (dat0 V c).leavesExact 2 t = owns (c : Thread nD τ) (st0_2 t) fullShare ((dat0 V c).after 2 t) from by
        unfold Dat.leavesExact; rw [live0_2 t h7], after0_2, acc0_step V c t h0]
      iintro ⟨⟨⟨HS, Hoth⟩, Hg⟩, Ho, ⟨%d0, H0⟩, ⟨%d1, H1⟩, ⟨%d2, H2⟩⟩
      iapply (run_emit0 c Set.univ (grid0.coords t) _ _ _ _ _ _ _ _ (fun h => h0 ((resetCond0_iff t).mp h)) ((emitCond0_iff t).mpr h7) (qblk0 V c t) (kblk0 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat0 V c) 2 t (idle0_2 t h7) (noflush0_2 t h7)]
      iintro ⟨⟨⟨HS, Hoth⟩, Hg⟩, Ho, ⟨%d0, H0⟩, ⟨%d1, H1⟩, ⟨%d2, H2⟩⟩
      iapply (run_mid0 c Set.univ (grid0.coords t) _ _ _ _ _ _ _ _ (fun h => h0 ((resetCond0_iff t).mp h)) (fun h => h7 ((emitCond0_iff t).mp h)) (qblk0 V c t) (kblk0 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point, -/
theorem hin0 (c : Dev nD) : Pipeline.ΦA spec0 c ⊢ (dat0 V c).Φ 0 := by
  rw [show (dat0 V c).Φ 0 = Inv0 V c 0 (Nat.zero_le _) from rfl, Inv0_zero V c 0 _ rfl]

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl, PhiA0_eq]
  exact Inv0_some V c _ _

end Cert.Kernel.Hand

end
-- ==== Proof.Bits.Body1.lean ====
import proofs.«170469_j84043920048708_1_alg».proof.Proof.Gen.Kernel.Launch
import proofs.«170469_j84043920048708_1_alg».proof.Proof.Gen.Kernel.Skeleton
import proofs.«170469_j84043920048708_1_alg».proof.Proof.Gen.Kernel.Points
import proofs.«170469_j84043920048708_1_alg».proof.Proof.Zeros
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body, case by case

The body keeps, in its scratch buffer, a running minimum over the key blocks of one row of the grid. Its two guards
depend only on the second grid coordinate, so a point is in one of three cases: it RESETS the scratch to +∞ first
(coordinate 0), it only UPDATES the scratch (coordinates 1 to 6), or it updates and then COPIES the scratch to its output
block (coordinate 7). In each case the body, run on whole buffers holding `x0` (query rows), `x1` (key rows), `xo`
(output block) and `a` (scratch), leaves the inputs as they were and the scratch at the update `k1_pay2 x0 x1 ·` of
what it started from: a store through the whole-buffer rectangle leaves its payload, and a load through it reads the
contents. -/

/-- The body resets its running minimum when the second grid coordinate is 0. -/
abbrev resetCond1 (i : grid1.Coords) : Prop := (Scalar.cmpi .ne (Scalar.extui (Scalar.cmpi .eq (BitVec.ofNat 32 (i 1).val) 0#32)) 0#32) = 1#1
/-- It copies the running minimum to its output block when the second grid coordinate is 7, the last. -/
abbrev emitCond1 (i : grid1.Coords) : Prop := k1_cond2 i = 1#1

set_option maxHeartbeats 1000000 in
theorem run_reset1 (c : Dev nD) (E : Set ℕ) (i : grid1.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : resetCond1 i) (hc1 : ¬emitCond1 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (xo) ∗ owns (c : Thread nD τ) arg5 fullShare (k1_pay2 x0 x1 k1_pay1)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (fun y => ⟨_, List.Mem.head _, View.mem_set_unit_zero (S := S2x512) zeros2 Facts₀.inb_S2x512_S2x512_0_0 y⟩), View.canon_cons_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

set_option maxHeartbeats 1000000 in
theorem run_mid1 (c : Dev nD) (E : Set ℕ) (i : grid1.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : ¬resetCond1 i) (hc1 : ¬emitCond1 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (xo) ∗ owns (c : Thread nD τ) arg5 fullShare (k1_pay2 x0 x1 a)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  rw [View.read_writes_eq_canon _ _ _ (fun y => ⟨_, List.Mem.head _, View.mem_set_unit_zero (S := S2x512) zeros2 Facts₀.inb_S2x512_S2x512_0_0 y⟩), View.canon_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

set_option maxHeartbeats 1000000 in
theorem run_emit1 (c : Dev nD) (E : Set ℕ) (i : grid1.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : ¬resetCond1 i) (hc1 : emitCond1 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (k1_pay2 x0 x1 a) ∗ owns (c : Thread nD τ) arg5 fullShare (k1_pay2 x0 x1 a)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.Mem.head _, View.mem_set_unit_zero (S := S2x512) zeros2 Facts₀.inb_S2x512_S2x512_0_0 y⟩), View.canon_unit_zero (S := S2x512) zeros2]
    simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]
  iexists _; isplitr
  swap; · iexact H3
  ipureintro
  sl_unfold_words
  rw [View.read_writes_eq_canon _ _ _ (fun y => ⟨_, List.Mem.head _, View.mem_set_unit_zero (S := S2x512) zeros2 Facts₀.inb_S2x512_S2x512_0_0 y⟩), View.canon_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

end Cert.Kernel.Hand

end
-- ==== Proof.Bits.Data1.lean ====
import proofs.«170469_j84043920048708_1_alg».proof.Proof.Gen.Kernel.Launch
import proofs.«170469_j84043920048708_1_alg».proof.Proof.Gen.Kernel.Skeleton
import proofs.«170469_j84043920048708_1_alg».proof.Proof.Gen.Kernel.Points
import proofs.«170469_j84043920048708_1_alg».proof.Proof.Bits.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each grid point leaves, and the body at every point

The grid is 16 × 8, row-major: point `t` has first coordinate `t / 8` (which block of 512 query rows) and second
coordinate `t % 8` (which block of 1024 key rows). The scratch buffer carries, for each of the 2 × 512 query rows of the
current block, the least clamped squared distance to the key rows seen so far; it is reset where `t % 8 = 0` and copied
to the output block where `t % 8 = 7`. Everything here is stated at a parameter `V`, the buffers' contents when the
region is entered. -/

variable (V : (c : Dev nD) → (b : Ref sig .tc) → Buf (Elt F) ((c : Thread nD τ).loc b))

/-- Window `w`'s block of its array at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of 2 × 512 query rows at point `t`, -/
abbrev qblk1 (c : Dev nD) (t : Fin cfg1.N) : Vec F S2x512x3 .f32 := iblk1 V c 0 t
/-- and the block of 2 × 1024 key rows. -/
abbrev kblk1 (c : Dev nD) (t : Fin cfg1.N) : Vec F S2x1024x3 .f32 := iblk1 V c 1 t

/-- An input window's staging buffer holds its block at every point, fetched there or not: the body leaves it in place,
    and where the pipeline does not fetch, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running minimum, point by point -/

/-- What the scratch buffer holds after the body at point `n`: the body's update of the two blocks there, over the
    reset value where the point resets and over what the point before left elsewhere. -/
def acc1 (c : Dev nD) : (n : ℕ) → n < cfg1.N → Vec F S2x512 .f32
  | 0, hn => k1_pay2 (qblk1 V c ⟨0, hn⟩) (kblk1 V c ⟨0, hn⟩) k1_pay1
  | n + 1, hn =>
    if (n + 1) % 8 = 0 then k1_pay2 (qblk1 V c ⟨n + 1, hn⟩) (kblk1 V c ⟨n + 1, hn⟩) k1_pay1
    else k1_pay2 (qblk1 V c ⟨n + 1, hn⟩) (kblk1 V c ⟨n + 1, hn⟩) (acc1 c n (Nat.lt_of_succ_lt hn))

theorem acc1_reset (c : Dev nD) (t : Fin cfg1.N) (h : t.val % 8 = 0) :
    acc1 V c t.val t.isLt = k1_pay2 (qblk1 V c t) (kblk1 V c t) k1_pay1 := by
  obtain ⟨n, hn⟩ := t
  cases n with
  | zero => rfl
  | succ n => exact if_pos h

theorem acc1_step (c : Dev nD) (t : Fin cfg1.N) (h : ¬t.val % 8 = 0) :
    acc1 V c t.val t.isLt
      = k1_pay2 (qblk1 V c t) (kblk1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch operand: a whole scoped buffer of the kernel's own. -/
abbrev scM1 : Memref sig .tc .vmem S2x512 .f32 := Memref.whole cc1_scratch0

/-- The core's other scoped buffers that are no staging buffer of this region, at some contents each. -/
def others1 (c : Dev nD) : sProp 𝕄 :=
  Pipeline.scopedRestBut (Ix := Unit) (Name := ℕ) (U := UR sig nD τ) (Lvl := ℕ) (Val := Elt F) spec1 c [cc1_scratch0]

/-- What the region is handed: the scratch at some contents, the other scoped buffers, the generator register. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [bigSepL_singleton, scM1, owns_whole]
  try rfl

/-- Before point `n`: at the first point what the region was handed; afterwards the scratch at what the point before
    left in it, beside the other scoped buffers and the generator register. -/
def Inv1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Inv1_zero (c : Dev nD) (n : ℕ) (h : n ≤ cfg1.N) (hz : n = 0) : Inv1 V c n h = Pipeline.ΦA spec1 c := by
  subst hz; rfl

theorem Inv1_succ (c : Dev nD) (n : ℕ) (hn : n < cfg1.N) :
    Inv1 V c (n + 1) hn = iprop(iprop(owns (c : Thread nD τ) scM1 fullShare (acc1 V c n hn) ∗ others1 c) ∗ (∃ r, prngReg c r)) := rfl

theorem Inv1_pos (c : Dev nD) (n : ℕ) (h : n ≤ cfg1.N) (hz : n ≠ 0) :
    Inv1 V c n h = iprop(iprop(owns (c : Thread nD τ) scM1 fullShare (acc1 V c (n - 1) (by omega)) ∗ others1 c) ∗ (∃ r, prngReg c r)) := by
  cases n with
  | zero => exact absurd rfl hz
  | succ n => rfl

/-- At any point the invariant holds the scratch at SOME contents. -/
theorem Inv1_some (c : Dev nD) (n : ℕ) (h : n ≤ cfg1.N) :
    Inv1 V c n h ⊢ iprop(iprop((∃ d, owns (c : Thread nD τ) scM1 fullShare d) ∗ others1 c) ∗ (∃ r, prngReg c r)) := by
  cases n with
  | zero => rw [Inv1_zero V c 0 h rfl, PhiA1_eq]
  | succ n =>
    rw [Inv1_succ]
    iintro ⟨⟨HS, Ho⟩, Hg⟩
    isplitl [HS Ho]
    · isplitl [HS]
      · iexists _; iexact HS
      iexact Ho
    iexact Hg

/-! ## The proof data -/

/-- The region's proof data on core `c`: the arrays as found; after the body each input's buffer at its block and the
    output's at the running minimum (read only where the point copies it out); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_castSucc (c : Dev nD) (t : Fin cfg1.N) :
    (dat1 V c).Φ t.castSucc = Inv1 V c t.val (Nat.le_of_lt t.isLt) := by
  dsimp only [dat1]; simp only [Fin.coe_castSucc]

/-! ## The guards over the grid, and where the output window is idle -/

theorem resetCond1_iff : ∀ t : Fin cfg1.N, resetCond1 (grid1.coords t) ↔ t.val % 8 = 0 :=
  (by decide +kernel : ∀ t : Fin grid1.N, resetCond1 (grid1.coords t) ↔ t.val % 8 = 0)
theorem emitCond1_iff : ∀ t : Fin cfg1.N, emitCond1 (grid1.coords t) ↔ t.val % 8 = 7 :=
  (by decide +kernel : ∀ t : Fin grid1.N, emitCond1 (grid1.coords t) ↔ t.val % 8 = 7)

/-- The input windows are never idle. -/
theorem live1_0 (t : Fin cfg1.N) : cfg1.idle 0 (grid1.coords t) = false := rfl
theorem live1_1 (t : Fin cfg1.N) : cfg1.idle 1 (grid1.coords t) = false := rfl
/-- The output window is idle exactly where the body does not copy the running minimum out, and there it is not written back. -/
theorem idle1_2 : ∀ t : Fin cfg1.N, ¬t.val % 8 = 7 → cfg1.idle 2 (grid1.coords t) = true := by decide +kernel
theorem live1_2 : ∀ t : Fin cfg1.N, t.val % 8 = 7 → cfg1.idle 2 (grid1.coords t) = false := by decide +kernel
theorem noflush1_2 (t : Fin cfg1.N) (h : ¬t.val % 8 = 7) : (cfg1.win 2).flush t = false := by
  cases hf : (cfg1.win 2).flush t with
  | false => rfl
  | true => exact absurd ((flush1_2 t).mp hf) h

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's position in its row of 8: the first resets (whatever the scratch held), the
    last also copies out, the others only update; the invariant hands over the scratch at what the point before left and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Inv1 V c (t.val + 1) t.isLt from rfl, Inv1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  by_cases h0 : t.val % 8 = 0
  · have h7 : ¬t.val % 8 = 7 := by omega
    rw [Dat.leavesExact_idle (dat1 V c) 2 t (idle1_2 t h7) (noflush1_2 t h7), acc1_reset V c t h0, Phi1_castSucc V c t]
    iintro ⟨HΦ, Ho, ⟨%d0, H0⟩, ⟨%d1, H1⟩, ⟨%d2, H2⟩⟩
    ihave HΦ' := (Inv1_some V c _ _) $$ HΦ
    icases HΦ' with ⟨⟨⟨%a, HS⟩, Hoth⟩, Hg⟩
    iapply (run_reset1 c Set.univ (grid1.coords t) _ _ _ _ _ _ _ _ ((resetCond1_iff t).mpr h0) (fun h => h7 ((emitCond1_iff t).mp h)) (qblk1 V c t) (kblk1 V c t) _ a _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun h => h0 (by rw [h])
    rw [acc1_step V c t h0, Phi1_castSucc V c t, Inv1_pos V c _ _ hz]
    by_cases h7 : t.val % 8 = 7
    · rw [show (dat1 V c).leavesExact 2 t = owns (c : Thread nD τ) (st1_2 t) fullShare ((dat1 V c).after 2 t) from by
        unfold Dat.leavesExact; rw [live1_2 t h7], after1_2, acc1_step V c t h0]
      iintro ⟨⟨⟨HS, Hoth⟩, Hg⟩, Ho, ⟨%d0, H0⟩, ⟨%d1, H1⟩, ⟨%d2, H2⟩⟩
      iapply (run_emit1 c Set.univ (grid1.coords t) _ _ _ _ _ _ _ _ (fun h => h0 ((resetCond1_iff t).mp h)) ((emitCond1_iff t).mpr h7) (qblk1 V c t) (kblk1 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat1 V c) 2 t (idle1_2 t h7) (noflush1_2 t h7)]
      iintro ⟨⟨⟨HS, Hoth⟩, Hg⟩, Ho, ⟨%d0, H0⟩, ⟨%d1, H1⟩, ⟨%d2, H2⟩⟩
      iapply (run_mid1 c Set.univ (grid1.coords t) _ _ _ _ _ _ _ _ (fun h => h0 ((resetCond1_iff t).mp h)) (fun h => h7 ((emitCond1_iff t).mp h)) (qblk1 V c t) (kblk1 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point, -/
theorem hin1 (c : Dev nD) : Pipeline.ΦA spec1 c ⊢ (dat1 V c).Φ 0 := by
  rw [show (dat1 V c).Φ 0 = Inv1 V c 0 (Nat.zero_le _) from rfl, Inv1_zero V c 0 _ rfl]

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl, PhiA1_eq]
  exact Inv1_some V c _ _

end Cert.Kernel.Hand

end
-- ==== Proof.Bits.Run.lean ====
import proofs.«170469_j84043920048708_1_alg».proof.Proof.Gen.Kernel.Launch
import proofs.«170469_j84043920048708_1_alg».proof.Proof.Gen.Kernel.Skeleton
import proofs.«170469_j84043920048708_1_alg».proof.Proof.Gen.Kernel.Points
import proofs.«170469_j84043920048708_1_alg».proof.Proof.Bits.Data0
import proofs.«170469_j84043920048708_1_alg».proof.Proof.Bits.Data1
import proofs.«170469_j84043920048708_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the two regions, then the host's averaging

@main is region 0 (the nearest key row for every query row of the first cloud), region 1 (the same with the clouds
exchanged), then seventeen host operations that average the two results. The buffers' contents at each boundary are a
fold from the launch memory: a region leaves its arrays at what its write-backs computed and every other buffer as it
found it; the host stretch leaves what its operations compute. The launch below reads EVERY unscoped buffer against the
last of these contents, so that both the frame (the two arguments, which nothing writes) and the result follow from it. -/

variable (m : (ℓ : Loc nD τ sig) → Buf (Elt F) ℓ) (ρ : Dev nD → PrngReg)

/-- Core `c`'s buffers at launch, where region 0 is entered. -/
abbrev W0 : Dev nD → Valuation τ sig (Elt F) := fun c b => (s₀ m ρ).mem ((c : Dev nD), b)
/-- The same read at the TensorCore's references (what region 0's proof data take). -/
abbrev U0 : (c : Dev nD) → (b : Ref sig .tc) → Buf (Elt F) ((c : Thread nD τ).loc b) := fun c b => W0 m ρ c b

/-- After region 0: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After region 1, likewise from `W1`. -/
def W2 (c : Dev nD) : Valuation τ sig (Elt F) :=
  Pipeline.withArrays spec1 c (W1 m ρ c) fun w => (dat1 (U1 m ρ) c).arrAt w cfg1.N
theorem W2_arr (c : Dev nD) (w : Fin cfg1.W) :
    W2 m ρ c (Proc.devRef .tc (Pipeline.arrRef spec1 w)) = (dat1 (U1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev U2 : (c : Dev nD) → (b : Ref sig .tc) → Buf (Elt F) ((c : Thread nD τ).loc b) := fun c b => W2 m ρ c b
theorem hF1 (c : Dev nD) (w : Fin cfg1.W) : (dat1 (U1 m ρ) c).arrAt w cfg1.N = U2 m ρ c (Pipeline.arrRef spec1 w) :=
  (W2_arr m ρ c w).symm
theorem hrest1 (c : Dev nD) : ∀ b, b ∉ Finset.univ.image (Pipeline.arrRef spec1) → U2 m ρ c b = U1 m ρ c b :=
  fun b hb => W2_of_ne m ρ c b fun w e => hb (Finset.mem_image.mpr ⟨w, Finset.mem_univ _, e⟩)

/-- After the host stretch. -/
abbrev W3 : Dev nD → Valuation τ sig (Elt F) := fun c => StableHlo.after hostOps2 (W2 m ρ c)

/-! ## The arguments end as launched: a region only reads them through its input windows, no host operation writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide : main_arg0 ∉ hostOps2_W)
    _ = W1 m ρ c (Proc.devRef .tc main_arg0) := (W2_arr m ρ c 1).trans (((dat1 (U1 m ρ) c).arrAt_in 1 rfl _).trans (A_eq1 (U1 m ρ) c 1))
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide : main_arg1 ∉ hostOps2_W)
    _ = W1 m ρ c (Proc.devRef .tc main_arg1) := (W2_arr m ρ c 0).trans (((dat1 (U1 m ρ) c).arrAt_in 0 rfl _).trans (A_eq1 (U1 m ρ) c 0))
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl

/-! ## The proof data family and the thread state -/

/-- No pipeline has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (U0 m ρ) c
  | ⟨1, _⟩ => fun c => dat1 (U1 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and the core owing nothing. -/
abbrev RH (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TH (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W0`, left with them at `W1`. Its arrays
    are split out of the unscoped buffers and put back at their exit contents; the generator register and the scoped
    buffers go into the region's invariant and come back; nothing is owed; the kernel has no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ LH lvH 0 fun _ _ => rfl
  pre c := iprop(StableHlo.held (c : Thread nD τ) (Pipeline.ucRefs τ sig) (W0 m ρ c) ∗ RH c)
  post c := iprop(StableHlo.held (c : Thread nD τ) (Pipeline.ucRefs τ sig) (W1 m ρ c) ∗ RH c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (U0 m ρ) c).Φ (Fin.last cfg0.N) ⊢ _
    iintro Hphi
    ihave H := (hout0 (U0 m ρ) c) $$ Hphi
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W1`, left with them at `W2`. Its arrays
    are split out of the unscoped buffers and put back at their exit contents; the generator register and the scoped
    buffers go into the region's invariant and come back; nothing is owed; the kernel has no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U1 m ρ) c).loose
  hwaits := Pipeline.hwaits_of_owed_zero _ _ _ _ LH lvH 1 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    show (dat1 (U1 m ρ) c).Φ (Fin.last cfg1.N) ⊢ _
    iintro Hphi
    ihave H := (hout1 (U1 m ρ) c) $$ Hphi
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (U1 m ρ c) (U2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host stretch as a segment, from `W2`. -/
abbrev tailSeg : Pipeline.HostSeg (Name := ℕ) (U := UR sig nD τ) (pcfgs (F := F)) defs₀ 𝒱H LH lvH :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m ρ) RH

/-! ## @main as segments, and the launch -/

abbrev segsH : List (Pipeline.Seg (pcfgs (F := F)) admH (pdats m ρ) () defs₀ 𝒱H LH lvH) :=
  [ .region (reg0 m ρ), .region (reg1 m ρ), .host (tailSeg m ρ) ]

theorem main_runH (c : Dev nD) : main (F := F) c = Pipeline.Seg.run (segsH m ρ) := (main_chain c).trans (by chain_rfl)

-- the launch theorem's implicit arguments are found by unifying its conclusion with this one, which takes unfolding plain
-- definitions in a metavariable's type
set_option backward.isDefEq.respectTransparency.types false in
/-- From any memory with zero counters every weakly fair execution of @main terminates, nothing faulting, and every
    final memory holds every unscoped buffer at `W3`: the launch over the three segments, the last thread state read
    against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun c => by
      show iprop(StableHlo.held (c : Thread nD τ) (Pipeline.ucRefs τ sig) (W3 m ρ c) ∗ RH c)
        ⊢ iprop(TH m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.Kernel.Hand

end
-- ==== Proof.Ideal.Body0.lean ====
import proofs.«170469_j84043920048708_1_alg».proof.Proof.Gen.KernelIdeal.Launch
import proofs.«170469_j84043920048708_1_alg».proof.Proof.Gen.KernelIdeal.Skeleton
import proofs.«170469_j84043920048708_1_alg».proof.Proof.Gen.KernelIdeal.Points
import proofs.«170469_j84043920048708_1_alg».proof.Proof.Zeros
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the kernel body, case by case

The body keeps, in its scratch buffer, a running minimum over the key blocks of one row of the grid. Its two guards
depend only on the second grid coordinate, so a point is in one of three cases: it RESETS the scratch to +∞ first
(coordinate 0), it only UPDATES the scratch (coordinates 1 to 6), or it updates and then COPIES the scratch to its output
block (coordinate 7). In each case the body, run on whole buffers holding `x0` (query rows), `x1` (key rows), `xo`
(output block) and `a` (scratch), leaves the inputs as they were and the scratch at the update `k0_pay2 x0 x1 ·` of
what it started from: a store through the whole-buffer rectangle leaves its payload, and a load through it reads the
contents. -/

/-- The body resets its running minimum when the second grid coordinate is 0. -/
abbrev resetCond0 (i : grid0.Coords) : Prop := (Scalar.cmpi .ne (Scalar.extui (Scalar.cmpi .eq (BitVec.ofNat 32 (i 1).val) 0#32)) 0#32) = 1#1
/-- It copies the running minimum to its output block when the second grid coordinate is 7, the last. -/
abbrev emitCond0 (i : grid0.Coords) : Prop := k0_cond2 i = 1#1

set_option maxHeartbeats 1000000 in
theorem run_reset0 (c : Dev nD) (E : Set ℕ) (i : grid0.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : resetCond0 i) (hc1 : ¬emitCond0 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (xo) ∗ owns (c : Thread nD τ) arg5 fullShare (k0_pay2 x0 x1 k0_pay1)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (fun y => ⟨_, List.Mem.head _, View.mem_set_unit_zero (S := S2x512) zeros2 Facts₀.inb_S2x512_S2x512_0_0 y⟩), View.canon_cons_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

set_option maxHeartbeats 1000000 in
theorem run_mid0 (c : Dev nD) (E : Set ℕ) (i : grid0.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : ¬resetCond0 i) (hc1 : ¬emitCond0 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (xo) ∗ owns (c : Thread nD τ) arg5 fullShare (k0_pay2 x0 x1 a)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  rw [View.read_writes_eq_canon _ _ _ (fun y => ⟨_, List.Mem.head _, View.mem_set_unit_zero (S := S2x512) zeros2 Facts₀.inb_S2x512_S2x512_0_0 y⟩), View.canon_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

set_option maxHeartbeats 1000000 in
theorem run_emit0 (c : Dev nD) (E : Set ℕ) (i : grid0.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : ¬resetCond0 i) (hc1 : emitCond0 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (k0_pay2 x0 x1 a) ∗ owns (c : Thread nD τ) arg5 fullShare (k0_pay2 x0 x1 a)) -∗ K ⟨⟩))
      ⊢ wp frame (wpE (defs₀ (F := F)) Variants.none c none) E (cc0__row_min_kernel i arg2 harg2 arg3 harg3 arg4 harg4 arg5 harg5) K := by
  simp only [cc0__row_min_kernel_eq_skeleton]; unfold cc0__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.Mem.head _, View.mem_set_unit_zero (S := S2x512) zeros2 Facts₀.inb_S2x512_S2x512_0_0 y⟩), View.canon_unit_zero (S := S2x512) zeros2]
    simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]
  iexists _; isplitr
  swap; · iexact H3
  ipureintro
  sl_unfold_words
  rw [View.read_writes_eq_canon _ _ _ (fun y => ⟨_, List.Mem.head _, View.mem_set_unit_zero (S := S2x512) zeros2 Facts₀.inb_S2x512_S2x512_0_0 y⟩), View.canon_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

end Cert.KernelIdeal.Hand

end
-- ==== Proof.Ideal.Data0.lean ====
import proofs.«170469_j84043920048708_1_alg».proof.Proof.Gen.KernelIdeal.Launch
import proofs.«170469_j84043920048708_1_alg».proof.Proof.Gen.KernelIdeal.Skeleton
import proofs.«170469_j84043920048708_1_alg».proof.Proof.Gen.KernelIdeal.Points
import proofs.«170469_j84043920048708_1_alg».proof.Proof.Ideal.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each grid point leaves, and the body at every point

The grid is 16 × 8, row-major: point `t` has first coordinate `t / 8` (which block of 512 query rows) and second
coordinate `t % 8` (which block of 1024 key rows). The scratch buffer carries, for each of the 2 × 512 query rows of the
current block, the least clamped squared distance to the key rows seen so far; it is reset where `t % 8 = 0` and copied
to the output block where `t % 8 = 7`. Everything here is stated at a parameter `V`, the buffers' contents when the
region is entered. -/

variable (V : (c : Dev nD) → (b : Ref sig .tc) → Buf (Elt F) ((c : Thread nD τ).loc b))

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 2 × 512 query rows at point `t`, -/
abbrev qblk0 (c : Dev nD) (t : Fin cfg0.N) : Vec F S2x512x3 .f32 := iblk0 V c 0 t
/-- and the block of 2 × 1024 key rows. -/
abbrev kblk0 (c : Dev nD) (t : Fin cfg0.N) : Vec F S2x1024x3 .f32 := iblk0 V c 1 t

/-- An input window's staging buffer holds its block at every point, fetched there or not: the body leaves it in place,
    and where the pipeline does not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running minimum, point by point -/

/-- What the scratch buffer holds after the body at point `n`: the body's update of the two blocks there, over the
    reset value where the point resets and over what the point before left elsewhere. -/
def acc0 (c : Dev nD) : (n : ℕ) → n < cfg0.N → Vec F S2x512 .f32
  | 0, hn => k0_pay2 (qblk0 V c ⟨0, hn⟩) (kblk0 V c ⟨0, hn⟩) k0_pay1
  | n + 1, hn =>
    if (n + 1) % 8 = 0 then k0_pay2 (qblk0 V c ⟨n + 1, hn⟩) (kblk0 V c ⟨n + 1, hn⟩) k0_pay1
    else k0_pay2 (qblk0 V c ⟨n + 1, hn⟩) (kblk0 V c ⟨n + 1, hn⟩) (acc0 c n (Nat.lt_of_succ_lt hn))

theorem acc0_reset (c : Dev nD) (t : Fin cfg0.N) (h : t.val % 8 = 0) :
    acc0 V c t.val t.isLt = k0_pay2 (qblk0 V c t) (kblk0 V c t) k0_pay1 := by
  obtain ⟨n, hn⟩ := t
  cases n with
  | zero => rfl
  | succ n => exact if_pos h

theorem acc0_step (c : Dev nD) (t : Fin cfg0.N) (h : ¬t.val % 8 = 0) :
    acc0 V c t.val t.isLt
      = k0_pay2 (qblk0 V c t) (kblk0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch operand: a whole scoped buffer of the kernel's own. -/
abbrev scM0 : Memref sig .tc .vmem S2x512 .f32 := Memref.whole cc0_scratch0

/-- The core's other scoped buffers that are no staging buffer of this region, at some contents each. -/
def others0 (c : Dev nD) : sProp 𝕄 :=
  Pipeline.scopedRestBut (Ix := Unit) (Name := ℕ) (U := UR sig nD τ) (Lvl := ℕ) (Val := Elt F) spec0 c [cc0_scratch0]

/-- What the region is handed: the scratch at some contents, the other scoped buffers, the generator register. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [bigSepL_singleton, scM0, owns_whole]
  try rfl

/-- Before point `n`: at the first point what the region was handed; afterwards the scratch at what the point before
    left in it, beside the other scoped buffers and the generator register. -/
def Inv0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Inv0_zero (c : Dev nD) (n : ℕ) (h : n ≤ cfg0.N) (hz : n = 0) : Inv0 V c n h = Pipeline.ΦA spec0 c := by
  subst hz; rfl

theorem Inv0_succ (c : Dev nD) (n : ℕ) (hn : n < cfg0.N) :
    Inv0 V c (n + 1) hn = iprop(iprop(owns (c : Thread nD τ) scM0 fullShare (acc0 V c n hn) ∗ others0 c) ∗ (∃ r, prngReg c r)) := rfl

theorem Inv0_pos (c : Dev nD) (n : ℕ) (h : n ≤ cfg0.N) (hz : n ≠ 0) :
    Inv0 V c n h = iprop(iprop(owns (c : Thread nD τ) scM0 fullShare (acc0 V c (n - 1) (by omega)) ∗ others0 c) ∗ (∃ r, prngReg c r)) := by
  cases n with
  | zero => exact absurd rfl hz
  | succ n => rfl

/-- At any point the invariant holds the scratch at SOME contents. -/
theorem Inv0_some (c : Dev nD) (n : ℕ) (h : n ≤ cfg0.N) :
    Inv0 V c n h ⊢ iprop(iprop((∃ d, owns (c : Thread nD τ) scM0 fullShare d) ∗ others0 c) ∗ (∃ r, prngReg c r)) := by
  cases n with
  | zero => rw [Inv0_zero V c 0 h rfl, PhiA0_eq]
  | succ n =>
    rw [Inv0_succ]
    iintro ⟨⟨HS, Ho⟩, Hg⟩
    isplitl [HS Ho]
    · isplitl [HS]
      · iexists _; iexact HS
      iexact Ho
    iexact Hg

/-! ## The proof data -/

/-- The region's proof data on core `c`: the arrays as found; after the body each input's buffer at its block and the
    output's at the running minimum (read only where the point copies it out); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem Phi0_castSucc (c : Dev nD) (t : Fin cfg0.N) :
    (dat0 V c).Φ t.castSucc = Inv0 V c t.val (Nat.le_of_lt t.isLt) := by
  dsimp only [dat0]; simp only [Fin.coe_castSucc]

/-! ## The guards over the grid, and where the output window is idle -/

theorem resetCond0_iff : ∀ t : Fin cfg0.N, resetCond0 (grid0.coords t) ↔ t.val % 8 = 0 :=
  (by decide +kernel : ∀ t : Fin grid0.N, resetCond0 (grid0.coords t) ↔ t.val % 8 = 0)
theorem emitCond0_iff : ∀ t : Fin cfg0.N, emitCond0 (grid0.coords t) ↔ t.val % 8 = 7 :=
  (by decide +kernel : ∀ t : Fin grid0.N, emitCond0 (grid0.coords t) ↔ t.val % 8 = 7)

/-- The input windows are never idle. -/
theorem live0_0 (t : Fin cfg0.N) : cfg0.idle 0 (grid0.coords t) = false := rfl
theorem live0_1 (t : Fin cfg0.N) : cfg0.idle 1 (grid0.coords t) = false := rfl
/-- The output window is idle exactly where the body does not copy the running minimum out, and there it is not written back. -/
theorem idle0_2 : ∀ t : Fin cfg0.N, ¬t.val % 8 = 7 → cfg0.idle 2 (grid0.coords t) = true := by decide +kernel
theorem live0_2 : ∀ t : Fin cfg0.N, t.val % 8 = 7 → cfg0.idle 2 (grid0.coords t) = false := by decide +kernel
theorem noflush0_2 (t : Fin cfg0.N) (h : ¬t.val % 8 = 7) : (cfg0.win 2).flush t = false := by
  cases hf : (cfg0.win 2).flush t with
  | false => rfl
  | true => exact absurd ((flush0_2 t).mp hf) h

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point, by the point's position in its row of 8: the first resets (whatever the scratch held), the
    last also copies out, the others only update; the invariant hands over the scratch at what the point before left and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Inv0 V c (t.val + 1) t.isLt from rfl, Inv0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  by_cases h0 : t.val % 8 = 0
  · have h7 : ¬t.val % 8 = 7 := by omega
    rw [Dat.leavesExact_idle (dat0 V c) 2 t (idle0_2 t h7) (noflush0_2 t h7), acc0_reset V c t h0, Phi0_castSucc V c t]
    iintro ⟨HΦ, Ho, ⟨%d0, H0⟩, ⟨%d1, H1⟩, ⟨%d2, H2⟩⟩
    ihave HΦ' := (Inv0_some V c _ _) $$ HΦ
    icases HΦ' with ⟨⟨⟨%a, HS⟩, Hoth⟩, Hg⟩
    iapply (run_reset0 c Set.univ (grid0.coords t) _ _ _ _ _ _ _ _ ((resetCond0_iff t).mpr h0) (fun h => h7 ((emitCond0_iff t).mp h)) (qblk0 V c t) (kblk0 V c t) _ a _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun h => h0 (by rw [h])
    rw [acc0_step V c t h0, Phi0_castSucc V c t, Inv0_pos V c _ _ hz]
    by_cases h7 : t.val % 8 = 7
    · rw [show (dat0 V c).leavesExact 2 t = owns (c : Thread nD τ) (st0_2 t) fullShare ((dat0 V c).after 2 t) from by
        unfold Dat.leavesExact; rw [live0_2 t h7], after0_2, acc0_step V c t h0]
      iintro ⟨⟨⟨HS, Hoth⟩, Hg⟩, Ho, ⟨%d0, H0⟩, ⟨%d1, H1⟩, ⟨%d2, H2⟩⟩
      iapply (run_emit0 c Set.univ (grid0.coords t) _ _ _ _ _ _ _ _ (fun h => h0 ((resetCond0_iff t).mp h)) ((emitCond0_iff t).mpr h7) (qblk0 V c t) (kblk0 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat0 V c) 2 t (idle0_2 t h7) (noflush0_2 t h7)]
      iintro ⟨⟨⟨HS, Hoth⟩, Hg⟩, Ho, ⟨%d0, H0⟩, ⟨%d1, H1⟩, ⟨%d2, H2⟩⟩
      iapply (run_mid0 c Set.univ (grid0.coords t) _ _ _ _ _ _ _ _ (fun h => h0 ((resetCond0_iff t).mp h)) (fun h => h7 ((emitCond0_iff t).mp h)) (qblk0 V c t) (kblk0 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point, -/
theorem hin0 (c : Dev nD) : Pipeline.ΦA spec0 c ⊢ (dat0 V c).Φ 0 := by
  rw [show (dat0 V c).Φ 0 = Inv0 V c 0 (Nat.zero_le _) from rfl, Inv0_zero V c 0 _ rfl]

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = Inv0 V c (Fin.last cfg0.N).val (Nat.le_of_lt_succ (Fin.last cfg0.N).isLt) from rfl, PhiA0_eq]
  exact Inv0_some V c _ _

end Cert.KernelIdeal.Hand

end
-- ==== Proof.Ideal.Body1.lean ====
import proofs.«170469_j84043920048708_1_alg».proof.Proof.Gen.KernelIdeal.Launch
import proofs.«170469_j84043920048708_1_alg».proof.Proof.Gen.KernelIdeal.Skeleton
import proofs.«170469_j84043920048708_1_alg».proof.Proof.Gen.KernelIdeal.Points
import proofs.«170469_j84043920048708_1_alg».proof.Proof.Zeros
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body, case by case

The body keeps, in its scratch buffer, a running minimum over the key blocks of one row of the grid. Its two guards
depend only on the second grid coordinate, so a point is in one of three cases: it RESETS the scratch to +∞ first
(coordinate 0), it only UPDATES the scratch (coordinates 1 to 6), or it updates and then COPIES the scratch to its output
block (coordinate 7). In each case the body, run on whole buffers holding `x0` (query rows), `x1` (key rows), `xo`
(output block) and `a` (scratch), leaves the inputs as they were and the scratch at the update `k1_pay2 x0 x1 ·` of
what it started from: a store through the whole-buffer rectangle leaves its payload, and a load through it reads the
contents. -/

/-- The body resets its running minimum when the second grid coordinate is 0. -/
abbrev resetCond1 (i : grid1.Coords) : Prop := (Scalar.cmpi .ne (Scalar.extui (Scalar.cmpi .eq (BitVec.ofNat 32 (i 1).val) 0#32)) 0#32) = 1#1
/-- It copies the running minimum to its output block when the second grid coordinate is 7, the last. -/
abbrev emitCond1 (i : grid1.Coords) : Prop := k1_cond2 i = 1#1

set_option maxHeartbeats 1000000 in
theorem run_reset1 (c : Dev nD) (E : Set ℕ) (i : grid1.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : resetCond1 i) (hc1 : ¬emitCond1 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (xo) ∗ owns (c : Thread nD τ) arg5 fullShare (k1_pay2 x0 x1 k1_pay1)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  sl_unfold_words
  rw [View.read_writes_eq_canon _ _ _ (fun y => ⟨_, List.Mem.head _, View.mem_set_unit_zero (S := S2x512) zeros2 Facts₀.inb_S2x512_S2x512_0_0 y⟩), View.canon_cons_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

set_option maxHeartbeats 1000000 in
theorem run_mid1 (c : Dev nD) (E : Set ℕ) (i : grid1.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : ¬resetCond1 i) (hc1 : ¬emitCond1 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (xo) ∗ owns (c : Thread nD τ) arg5 fullShare (k1_pay2 x0 x1 a)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact H3
  ipureintro
  rw [View.read_writes_eq_canon _ _ _ (fun y => ⟨_, List.Mem.head _, View.mem_set_unit_zero (S := S2x512) zeros2 Facts₀.inb_S2x512_S2x512_0_0 y⟩), View.canon_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

set_option maxHeartbeats 1000000 in
theorem run_emit1 (c : Dev nD) (E : Set ℕ) (i : grid1.Coords) (arg2 : Memref sig .tc .vmem S2x512x3 .f32) (harg2 : arg2.IsWhole) (arg3 : Memref sig .tc .vmem S2x1024x3 .f32) (harg3 : arg3.IsWhole) (arg4 : Memref sig .tc .vmem S2x512 .f32) (harg4 : arg4.IsWhole) (arg5 : Memref sig .tc .vmem S2x512 .f32) (harg5 : arg5.IsWhole)
    (hc0 : ¬resetCond1 i) (hc1 : emitCond1 i)
    (x0 : Vec F S2x512x3 .f32) (x1 : Vec F S2x1024x3 .f32) (xo : Vec F S2x512 .f32) (a : Vec F S2x512 .f32) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare a
        ∗ (iprop(owns (c : Thread nD τ) arg2 fullShare x0 ∗ owns (c : Thread nD τ) arg3 fullShare x1 ∗ owns (c : Thread nD τ) arg4 fullShare (k1_pay2 x0 x1 a) ∗ owns (c : Thread nD τ) arg5 fullShare (k1_pay2 x0 x1 a)) -∗ K ⟨⟩))
      ⊢ wp frame (wpE (defs₀ (F := F)) Variants.none c none) E (cc1__row_min_kernel i arg2 harg2 arg3 harg3 arg4 harg4 arg5 harg5) K := by
  simp only [cc1__row_min_kernel_eq_skeleton]; unfold cc1__row_min_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.Mem.head _, View.mem_set_unit_zero (S := S2x512) zeros2 Facts₀.inb_S2x512_S2x512_0_0 y⟩), View.canon_unit_zero (S := S2x512) zeros2]
    simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]
  iexists _; isplitr
  swap; · iexact H3
  ipureintro
  sl_unfold_words
  rw [View.read_writes_eq_canon _ _ _ (fun y => ⟨_, List.Mem.head _, View.mem_set_unit_zero (S := S2x512) zeros2 Facts₀.inb_S2x512_S2x512_0_0 y⟩), View.canon_unit_zero (S := S2x512) zeros2]
  simp only [View.readAt_eq_ld, harg2.read_unread, harg3.read_unread, harg5.read_unread, View.ld_unit_zero (S := S2x512x3) zeros3, View.ld_unit_zero (S := S2x1024x3) zeros3, View.ld_unit_zero (S := S2x512) zeros2, View.readCov_unit_zero (S := S2x512) _ zeros2]

end Cert.KernelIdeal.Hand

end
-- ==== Proof.Ideal.Data1.lean ====
import proofs.«170469_j84043920048708_1_alg».proof.Proof.Gen.KernelIdeal.Launch
import proofs.«170469_j84043920048708_1_alg».proof.Proof.Gen.KernelIdeal.Skeleton
import proofs.«170469_j84043920048708_1_alg».proof.Proof.Gen.KernelIdeal.Points
import proofs.«170469_j84043920048708_1_alg».proof.Proof.Ideal.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each grid point leaves, and the body at every point

The grid is 16 × 8, row-major: point `t` has first coordinate `t / 8` (which block of 512 query rows) and second
coordinate `t % 8` (which block of 1024 key rows). The scratch buffer carries, for each of the 2 × 512 query rows of the
current block, the least clamped squared distance to the key rows seen so far; it is reset where `t % 8 = 0` and copied
to the output block where `t % 8 = 7`. Everything here is stated at a parameter `V`, the buffers' contents when the
region is entered. -/

variable (V : (c : Dev nD) → (b : Ref sig .tc) → Buf (Elt F) ((c : Thread nD τ).loc b))

/-- Window `w`'s block of its array at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of 2 × 512 query rows at point `t`, -/
abbrev qblk1 (c : Dev nD) (t : Fin cfg1.N) : Vec F S2x512x3 .f32 := iblk1 V c 0 t
/-- and the block of 2 × 1024 key rows. -/
abbrev kblk1 (c : Dev nD) (t : Fin cfg1.N) : Vec F S2x1024x3 .f32 := iblk1 V c 1 t

/-- An input window's staging buffer holds its block at every point, fetched there or not: the body leaves it in place,
    and where the pipeline does not fetch, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running minimum, point by point -/

/-- What the scratch buffer holds after the body at point `n`: the body's update of the two blocks there, over the
    reset value where the point resets and over what the point before left elsewhere. -/
def acc1 (c : Dev nD) : (n : ℕ) → n < cfg1.N → Vec F S2x512 .f32
  | 0, hn => k1_pay2 (qblk1 V c ⟨0, hn⟩) (kblk1 V c ⟨0, hn⟩) k1_pay1
  | n + 1, hn =>
    if (n + 1) % 8 = 0 then k1_pay2 (qblk1 V c ⟨n + 1, hn⟩) (kblk1 V c ⟨n + 1, hn⟩) k1_pay1
    else k1_pay2 (qblk1 V c ⟨n + 1, hn⟩) (kblk1 V c ⟨n + 1, hn⟩) (acc1 c n (Nat.lt_of_succ_lt hn))

theorem acc1_reset (c : Dev nD) (t : Fin cfg1.N) (h : t.val % 8 = 0) :
    acc1 V c t.val t.isLt = k1_pay2 (qblk1 V c t) (kblk1 V c t) k1_pay1 := by
  obtain ⟨n, hn⟩ := t
  cases n with
  | zero => rfl
  | succ n => exact if_pos h

theorem acc1_step (c : Dev nD) (t : Fin cfg1.N) (h : ¬t.val % 8 = 0) :
    acc1 V c t.val t.isLt
      = k1_pay2 (qblk1 V c t) (kblk1 V c t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch operand: a whole scoped buffer of the kernel's own. -/
abbrev scM1 : Memref sig .tc .vmem S2x512 .f32 := Memref.whole cc1_scratch0

/-- The core's other scoped buffers that are no staging buffer of this region, at some contents each. -/
def others1 (c : Dev nD) : sProp 𝕄 :=
  Pipeline.scopedRestBut (Ix := Unit) (Name := ℕ) (U := UR sig nD τ) (Lvl := ℕ) (Val := Elt F) spec1 c [cc1_scratch0]

/-- What the region is handed: the scratch at some contents, the other scoped buffers, the generator register. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [bigSepL_singleton, scM1, owns_whole]
  try rfl

/-- Before point `n`: at the first point what the region was handed; afterwards the scratch at what the point before
    left in it, beside the other scoped buffers and the generator register. -/
def Inv1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Inv1_zero (c : Dev nD) (n : ℕ) (h : n ≤ cfg1.N) (hz : n = 0) : Inv1 V c n h = Pipeline.ΦA spec1 c := by
  subst hz; rfl

theorem Inv1_succ (c : Dev nD) (n : ℕ) (hn : n < cfg1.N) :
    Inv1 V c (n + 1) hn = iprop(iprop(owns (c : Thread nD τ) scM1 fullShare (acc1 V c n hn) ∗ others1 c) ∗ (∃ r, prngReg c r)) := rfl

theorem Inv1_pos (c : Dev nD) (n : ℕ) (h : n ≤ cfg1.N) (hz : n ≠ 0) :
    Inv1 V c n h = iprop(iprop(owns (c : Thread nD τ) scM1 fullShare (acc1 V c (n - 1) (by omega)) ∗ others1 c) ∗ (∃ r, prngReg c r)) := by
  cases n with
  | zero => exact absurd rfl hz
  | succ n => rfl

/-- At any point the invariant holds the scratch at SOME contents. -/
theorem Inv1_some (c : Dev nD) (n : ℕ) (h : n ≤ cfg1.N) :
    Inv1 V c n h ⊢ iprop(iprop((∃ d, owns (c : Thread nD τ) scM1 fullShare d) ∗ others1 c) ∗ (∃ r, prngReg c r)) := by
  cases n with
  | zero => rw [Inv1_zero V c 0 h rfl, PhiA1_eq]
  | succ n =>
    rw [Inv1_succ]
    iintro ⟨⟨HS, Ho⟩, Hg⟩
    isplitl [HS Ho]
    · isplitl [HS]
      · iexists _; iexact HS
      iexact Ho
    iexact Hg

/-! ## The proof data -/

/-- The region's proof data on core `c`: the arrays as found; after the body each input's buffer at its block and the
    output's at the running minimum (read only where the point copies it out); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem Phi1_castSucc (c : Dev nD) (t : Fin cfg1.N) :
    (dat1 V c).Φ t.castSucc = Inv1 V c t.val (Nat.le_of_lt t.isLt) := by
  dsimp only [dat1]; simp only [Fin.coe_castSucc]

/-! ## The guards over the grid, and where the output window is idle -/

theorem resetCond1_iff : ∀ t : Fin cfg1.N, resetCond1 (grid1.coords t) ↔ t.val % 8 = 0 :=
  (by decide +kernel : ∀ t : Fin grid1.N, resetCond1 (grid1.coords t) ↔ t.val % 8 = 0)
theorem emitCond1_iff : ∀ t : Fin cfg1.N, emitCond1 (grid1.coords t) ↔ t.val % 8 = 7 :=
  (by decide +kernel : ∀ t : Fin grid1.N, emitCond1 (grid1.coords t) ↔ t.val % 8 = 7)

/-- The input windows are never idle. -/
theorem live1_0 (t : Fin cfg1.N) : cfg1.idle 0 (grid1.coords t) = false := rfl
theorem live1_1 (t : Fin cfg1.N) : cfg1.idle 1 (grid1.coords t) = false := rfl
/-- The output window is idle exactly where the body does not copy the running minimum out, and there it is not written back. -/
theorem idle1_2 : ∀ t : Fin cfg1.N, ¬t.val % 8 = 7 → cfg1.idle 2 (grid1.coords t) = true := by decide +kernel
theorem live1_2 : ∀ t : Fin cfg1.N, t.val % 8 = 7 → cfg1.idle 2 (grid1.coords t) = false := by decide +kernel
theorem noflush1_2 (t : Fin cfg1.N) (h : ¬t.val % 8 = 7) : (cfg1.win 2).flush t = false := by
  cases hf : (cfg1.win 2).flush t with
  | false => rfl
  | true => exact absurd ((flush1_2 t).mp hf) h

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's position in its row of 8: the first resets (whatever the scratch held), the
    last also copies out, the others only update; the invariant hands over the scratch at what the point before left and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Inv1 V c (t.val + 1) t.isLt from rfl, Inv1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  by_cases h0 : t.val % 8 = 0
  · have h7 : ¬t.val % 8 = 7 := by omega
    rw [Dat.leavesExact_idle (dat1 V c) 2 t (idle1_2 t h7) (noflush1_2 t h7), acc1_reset V c t h0, Phi1_castSucc V c t]
    iintro ⟨HΦ, Ho, ⟨%d0, H0⟩, ⟨%d1, H1⟩, ⟨%d2, H2⟩⟩
    ihave HΦ' := (Inv1_some V c _ _) $$ HΦ
    icases HΦ' with ⟨⟨⟨%a, HS⟩, Hoth⟩, Hg⟩
    iapply (run_reset1 c Set.univ (grid1.coords t) _ _ _ _ _ _ _ _ ((resetCond1_iff t).mpr h0) (fun h => h7 ((emitCond1_iff t).mp h)) (qblk1 V c t) (kblk1 V c t) _ a _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · have hz : t.val ≠ 0 := fun h => h0 (by rw [h])
    rw [acc1_step V c t h0, Phi1_castSucc V c t, Inv1_pos V c _ _ hz]
    by_cases h7 : t.val % 8 = 7
    · rw [show (dat1 V c).leavesExact 2 t = owns (c : Thread nD τ) (st1_2 t) fullShare ((dat1 V c).after 2 t) from by
        unfold Dat.leavesExact; rw [live1_2 t h7], after1_2, acc1_step V c t h0]
      iintro ⟨⟨⟨HS, Hoth⟩, Hg⟩, Ho, ⟨%d0, H0⟩, ⟨%d1, H1⟩, ⟨%d2, H2⟩⟩
      iapply (run_emit1 c Set.univ (grid1.coords t) _ _ _ _ _ _ _ _ (fun h => h0 ((resetCond1_iff t).mp h)) ((emitCond1_iff t).mpr h7) (qblk1 V c t) (kblk1 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · rw [Dat.leavesExact_idle (dat1 V c) 2 t (idle1_2 t h7) (noflush1_2 t h7)]
      iintro ⟨⟨⟨HS, Hoth⟩, Hg⟩, Ho, ⟨%d0, H0⟩, ⟨%d1, H1⟩, ⟨%d2, H2⟩⟩
      iapply (run_mid1 c Set.univ (grid1.coords t) _ _ _ _ _ _ _ _ (fun h => h0 ((resetCond1_iff t).mp h)) (fun h => h7 ((emitCond1_iff t).mp h)) (qblk1 V c t) (kblk1 V c t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point, -/
theorem hin1 (c : Dev nD) : Pipeline.ΦA spec1 c ⊢ (dat1 V c).Φ 0 := by
  rw [show (dat1 V c).Φ 0 = Inv1 V c 0 (Nat.zero_le _) from rfl, Inv1_zero V c 0 _ rfl]

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = Inv1 V c (Fin.last cfg1.N).val (Nat.le_of_lt_succ (Fin.last cfg1.N).isLt) from rfl, PhiA1_eq]
  exact Inv1_some V c _ _

end Cert.KernelIdeal.Hand

end
-- ==== Proof.Ideal.Run.lean ====
import proofs.«170469_j84043920048708_1_alg».proof.Proof.Gen.KernelIdeal.Launch
import proofs.«170469_j84043920048708_1_alg».proof.Proof.Gen.KernelIdeal.Skeleton
import proofs.«170469_j84043920048708_1_alg».proof.Proof.Gen.KernelIdeal.Points
import proofs.«170469_j84043920048708_1_alg».proof.Proof.Ideal.Data0
import proofs.«170469_j84043920048708_1_alg».proof.Proof.Ideal.Data1
import proofs.«170469_j84043920048708_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the two regions, then the host's averaging

@main is region 0 (the nearest key row for every query row of the first cloud), region 1 (the same with the clouds
exchanged), then seventeen host operations that average the two results. The buffers' contents at each boundary are a
fold from the launch memory: a region leaves its arrays at what its write-backs computed and every other buffer as it
found it; the host stretch leaves what its operations compute. The launch below reads EVERY unscoped buffer against the
last of these contents, so that both the frame (the two arguments, which nothing writes) and the result follow from it. -/

variable (m : (ℓ : Loc nD τ sig) → Buf (Elt F) ℓ) (ρ : Dev nD → PrngReg)

/-- Core `c`'s buffers at launch, where region 0 is entered. -/
abbrev W0 : Dev nD → Valuation τ sig (Elt F) := fun c b => (s₀ m ρ).mem ((c : Dev nD), b)
/-- The same read at the TensorCore's references (what region 0's proof data take). -/
abbrev U0 : (c : Dev nD) → (b : Ref sig .tc) → Buf (Elt F) ((c : Thread nD τ).loc b) := fun c b => W0 m ρ c b

/-- After region 0: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After region 1, likewise from `W1`. -/
def W2 (c : Dev nD) : Valuation τ sig (Elt F) :=
  Pipeline.withArrays spec1 c (W1 m ρ c) fun w => (dat1 (U1 m ρ) c).arrAt w cfg1.N
theorem W2_arr (c : Dev nD) (w : Fin cfg1.W) :
    W2 m ρ c (Proc.devRef .tc (Pipeline.arrRef spec1 w)) = (dat1 (U1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev U2 : (c : Dev nD) → (b : Ref sig .tc) → Buf (Elt F) ((c : Thread nD τ).loc b) := fun c b => W2 m ρ c b
theorem hF1 (c : Dev nD) (w : Fin cfg1.W) : (dat1 (U1 m ρ) c).arrAt w cfg1.N = U2 m ρ c (Pipeline.arrRef spec1 w) :=
  (W2_arr m ρ c w).symm
theorem hrest1 (c : Dev nD) : ∀ b, b ∉ Finset.univ.image (Pipeline.arrRef spec1) → U2 m ρ c b = U1 m ρ c b :=
  fun b hb => W2_of_ne m ρ c b fun w e => hb (Finset.mem_image.mpr ⟨w, Finset.mem_univ _, e⟩)

/-- After the host stretch. -/
abbrev W3 : Dev nD → Valuation τ sig (Elt F) := fun c => StableHlo.after hostOps2 (W2 m ρ c)

/-! ## The arguments end as launched: a region only reads them through its input windows, no host operation writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide : main_arg0 ∉ hostOps2_W)
    _ = W1 m ρ c (Proc.devRef .tc main_arg0) := (W2_arr m ρ c 1).trans (((dat1 (U1 m ρ) c).arrAt_in 1 rfl _).trans (A_eq1 (U1 m ρ) c 1))
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide : main_arg1 ∉ hostOps2_W)
    _ = W1 m ρ c (Proc.devRef .tc main_arg1) := (W2_arr m ρ c 0).trans (((dat1 (U1 m ρ) c).arrAt_in 0 rfl _).trans (A_eq1 (U1 m ρ) c 0))
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl

/-! ## The proof data family and the thread state -/

/-- No pipeline has a prefetched table. -/
abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (U0 m ρ) c
  | ⟨1, _⟩ => fun c => dat1 (U1 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and the core owing nothing. -/
abbrev RH (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TH (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered with every unscoped buffer at `W0`, left with them at `W1`. Its arrays
    are split out of the unscoped buffers and put back at their exit contents; the generator register and the scoped
    buffers go into the region's invariant and come back; nothing is owed; the kernel has no semaphore of its own. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ LH lvH 0 fun _ _ => rfl
  pre c := iprop(StableHlo.held (c : Thread nD τ) (Pipeline.ucRefs τ sig) (W0 m ρ c) ∗ RH c)
  post c := iprop(StableHlo.held (c : Thread nD τ) (Pipeline.ucRefs τ sig) (W1 m ρ c) ∗ RH c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    show (dat0 (U0 m ρ) c).Φ (Fin.last cfg0.N) ⊢ _
    iintro Hphi
    ihave H := (hout0 (U0 m ρ) c) $$ Hphi
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W1`, left with them at `W2`. Its arrays
    are split out of the unscoped buffers and put back at their exit contents; the generator register and the scoped
    buffers go into the region's invariant and come back; nothing is owed; the kernel has no semaphore of its own. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U1 m ρ) c).loose
  hwaits := Pipeline.hwaits_of_owed_zero _ _ _ _ LH lvH 1 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    show (dat1 (U1 m ρ) c).Φ (Fin.last cfg1.N) ⊢ _
    iintro Hphi
    ihave H := (hout1 (U1 m ρ) c) $$ Hphi
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (U1 m ρ c) (U2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host stretch as a segment, from `W2`. -/
abbrev tailSeg : Pipeline.HostSeg (Name := ℕ) (U := UR sig nD τ) (pcfgs (F := F)) defs₀ 𝒱H LH lvH :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m ρ) RH

/-! ## @main as segments, and the launch -/

abbrev segsH : List (Pipeline.Seg (pcfgs (F := F)) admH (pdats m ρ) () defs₀ 𝒱H LH lvH) :=
  [ .region (reg0 m ρ), .region (reg1 m ρ), .host (tailSeg m ρ) ]

theorem main_runH (c : Dev nD) : main (F := F) c = Pipeline.Seg.run (segsH m ρ) := (main_chain c).trans (by chain_rfl)

-- the launch theorem's implicit arguments are found by unifying its conclusion with this one, which takes unfolding plain
-- definitions in a metavariable's type
set_option backward.isDefEq.respectTransparency.types false in
/-- From any memory with zero counters every weakly fair execution of @main terminates, nothing faulting, and every
    final memory holds every unscoped buffer at `W3`: the launch over the three segments, the last thread state read
    against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun c => by
      show iprop(StableHlo.held (c : Thread nD τ) (Pipeline.ucRefs τ sig) (W3 m ρ c) ∗ RH c)
        ⊢ iprop(TH m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.Ideal.Payload.lean ====
/-
  The two stored values of the row-minimum body, read at an index, with every float an extended real.
  The first is the splat of +∞. The second, at (b, p), is the old value there lowered to the least, over the
  1024 keys k, of max (‖x0[b,p]‖² + ‖x1[b,k]‖² − 2 · ⟨x0[b,p], x1[b,k]⟩) 0: the squared norms are sums over the last
  axis, the inner products a batched product contracting the last axis of both blocks, and the minimum is a fold of
  min from +∞ over the last axis. One small lemma per operation that is not pointwise, each at explicit coordinates.
-/
import proofs.«170469_j84043920048708_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The f32 word `0x7F800000` denotes `+∞`. -/
theorem ofBits_inf_f32 : Ideal.ofBits .f32 0x7F800000#32 = ⊤ := by simp [Ideal.ofBits, Ideal.ieee]

/-- The source index over `(b, p)` with `d` on the last axis, for the row sums of a `[2, 512, 3]` block. -/
theorem lift_x0 (b : Fin 2) (p : Fin 512) (d : Fin 3) :
    reduces_S2x512x3_S2x512.lift (ix2 b p) d = ix3 b p d := by
  funext a
  match a with
  | ⟨0, _⟩ => rfl
  | ⟨1, _⟩ => rfl
  | ⟨2, _⟩ => rfl

theorem lift_x1 (b : Fin 2) (k : Fin 1024) (d : Fin 3) :
    reduces_S2x1024x3_S2x1024.lift (ix2 b k) d = ix3 b k d := by
  funext a
  match a with
  | ⟨0, _⟩ => rfl
  | ⟨1, _⟩ => rfl
  | ⟨2, _⟩ => rfl

theorem lift_min (b : Fin 2) (p : Fin 512) (k : Fin 1024) :
    reduces_S2x512x1024_S2x512.lift (ix2 b p) k = ix3 b p k := by
  funext a
  match a with
  | ⟨0, _⟩ => rfl
  | ⟨1, _⟩ => rfl
  | ⟨2, _⟩ => rfl

/-- A sum over the last axis of a `[2, 512, 3]` block, at `(b, p)`. -/
theorem rowsum_x0 (y : FVec Ideal S2x512x3 .f32) (hφ : FKind.Formats .f32)
    (hacc : (0x00000000#32 : BitVec 32) = FKind.add.neutral .f32 hφ) (b : Fin 2) (p : Fin 512) :
    multiReduction (F := Ideal) .add [2] S2x512 y 0x00000000#32 reduces_S2x512x3_S2x512 hφ hacc (ix2 b p)
      = ∑ d : Fin 3, y (ix3 b p d) := by
  refine (Ideal.multiReduction_add_single y _ reduces_S2x512x3_S2x512 hφ hacc (ix2 b p)).trans ?_
  exact Finset.sum_congr rfl fun d _ => congrArg y (lift_x0 b p d)

theorem rowsum_x1 (y : FVec Ideal S2x1024x3 .f32) (hφ : FKind.Formats .f32)
    (hacc : (0x00000000#32 : BitVec 32) = FKind.add.neutral .f32 hφ) (b : Fin 2) (k : Fin 1024) :
    multiReduction (F := Ideal) .add [2] S2x1024 y 0x00000000#32 reduces_S2x1024x3_S2x1024 hφ hacc (ix2 b k)
      = ∑ d : Fin 3, y (ix3 b k d) := by
  refine (Ideal.multiReduction_add_single y _ reduces_S2x1024x3_S2x1024 hφ hacc (ix2 b k)).trans ?_
  exact Finset.sum_congr rfl fun d _ => congrArg y (lift_x1 b k d)

/-- A minimum over the last axis of a `[2, 512, 1024]` block from `+∞`, at `(b, p)`. -/
theorem rowmin (y : FVec Ideal S2x512x1024 .f32) (hφ : FKind.Formats .f32)
    (hacc : (0x7F800000#32 : BitVec 32) = FKind.minimumf.neutral .f32 hφ) (b : Fin 2) (p : Fin 512) :
    multiReduction (F := Ideal) .minimumf [2] S2x512 y 0x7F800000#32 reduces_S2x512x1024_S2x512 hφ hacc (ix2 b p)
      = Finset.univ.fold min ⊤ fun k : Fin 1024 => y (ix3 b p k) := by
  refine (multiReduction_minimumf_eq_fold y _ reduces_S2x512x1024_S2x512 hφ hacc (ix2 b p)).trans ?_
  refine (reduces_S2x512x1024_S2x512.fold_filter_drop_single _ _ y (ix2 b p)).trans ?_
  rw [Ideal.ofBits_def, ofBits_inf_f32]
  exact congrArg (fun f => Finset.fold min ⊤ f Finset.univ) (funext fun k => congrArg y (lift_min b p k))

/-! ## The unit-axis casts and the two broadcasts -/

/-- A `[2, 512]` array cast to `[2, 512, 1]` reads, at `(b, p, u)`, the operand at `(b, p)`. -/
theorem cast_col (v : S2x512.Idx → EReal) (b : Fin 2) (p : Fin 512) (u : Fin 1) :
    shapeCast S2x512x1 v shapeCasts_S2x512_S2x512x1 (ix3 b p u) = v (ix2 b p) :=
  shapeCast_apply v shapeCasts_S2x512_S2x512x1 _ _ (by
    have hu : u.val = 0 := by omega
    rw [Shape.rowMajor_val_two, Shape.rowMajor_val_three]
    show b.val * 512 + p.val = (b.val * 512 + p.val) * 1 + u.val
    rw [hu, Nat.mul_one, Nat.add_zero])

/-- A `[2, 1024]` array cast to `[2, 1, 1024]` reads, at `(b, u, k)`, the operand at `(b, k)`. -/
theorem cast_row (v : S2x1024.Idx → EReal) (b : Fin 2) (u : Fin 1) (k : Fin 1024) :
    shapeCast S2x1x1024 v shapeCasts_S2x1024_S2x1x1024 (ix3 b u k) = v (ix2 b k) :=
  shapeCast_apply v shapeCasts_S2x1024_S2x1x1024 _ _ (by
    have hu : u.val = 0 := by omega
    rw [Shape.rowMajor_val_two, Shape.rowMajor_val_three]
    show b.val * 1024 + k.val = (b.val * 1 + u.val) * 1024 + k.val
    rw [hu, Nat.mul_one, Nat.add_zero])

/-- A `[2, 512, 1]` array broadcast to `[2, 512, 1024]` reads, at `(b, p, k)`, the operand at `(b, p, 0)`. -/
theorem bcast_col (v : S2x512x1.Idx → EReal) (b : Fin 2) (p : Fin 512) (k : Fin 1024) :
    broadcastTo S2x512x1024 v broadcasts_S2x512x1_S2x512x1024 (ix3 b p k) = v (ix3 b p (0 : Fin 1)) := by
  refine broadcastTo_apply v broadcasts_S2x512x1_S2x512x1024 (ix3 b p k) (ix3 b p (0 : Fin 1)) fun ax => ?_
  match ax with
  | ⟨0, _⟩ => rfl
  | ⟨1, _⟩ => rfl
  | ⟨2, _⟩ => rfl

/-- A `[2, 1, 1024]` array broadcast to `[2, 512, 1024]` reads, at `(b, p, k)`, the operand at `(b, 0, k)`. -/
theorem bcast_row (v : S2x1x1024.Idx → EReal) (b : Fin 2) (p : Fin 512) (k : Fin 1024) :
    broadcastTo S2x512x1024 v broadcasts_S2x1x1024_S2x512x1024 (ix3 b p k) = v (ix3 b (0 : Fin 1) k) := by
  refine broadcastTo_apply v broadcasts_S2x1x1024_S2x512x1024 (ix3 b p k) (ix3 b (0 : Fin 1) k) fun ax => ?_
  match ax with
  | ⟨0, _⟩ => rfl
  | ⟨1, _⟩ => rfl
  | ⟨2, _⟩ => rfl

/-! ## The batched product: operand indices axis by axis -/

theorem lhs_ax0 (i : S2x512x1024.Idx) (q : dot_S2x512x3_S2x1024x3_S2x512x1024_2_2_1_1_0_0.contr.Idx) :
    (dot_S2x512x3_S2x1024x3_S2x512x1024_2_2_1_1_0_0.lhsIdx i q 0).val = (i 0).val := by
  unfold DotDims.lhsIdx
  rw [dif_pos (show (0 : Fin S2x512x3.rank) ∈ dot_S2x512x3_S2x1024x3_S2x512x1024_2_2_1_1_0_0.lhsBatch by decide)]
  rfl
theorem lhs_ax1 (i : S2x512x1024.Idx) (q : dot_S2x512x3_S2x1024x3_S2x512x1024_2_2_1_1_0_0.contr.Idx) :
    (dot_S2x512x3_S2x1024x3_S2x512x1024_2_2_1_1_0_0.lhsIdx i q 1).val = (i 1).val := by
  unfold DotDims.lhsIdx
  rw [dif_neg (show ¬(1 : Fin S2x512x3.rank) ∈ dot_S2x512x3_S2x1024x3_S2x512x1024_2_2_1_1_0_0.lhsBatch by decide), dif_pos (show (1 : Fin S2x512x3.rank) ∈ dot_S2x512x3_S2x1024x3_S2x512x1024_2_2_1_1_0_0.lhsNonContracting by decide)]
  rfl
theorem lhs_ax2 (i : S2x512x1024.Idx) (q : dot_S2x512x3_S2x1024x3_S2x512x1024_2_2_1_1_0_0.contr.Idx) :
    (dot_S2x512x3_S2x1024x3_S2x512x1024_2_2_1_1_0_0.lhsIdx i q 2).val = (q ⟨0, by decide⟩).val :=
  dot_S2x512x3_S2x1024x3_S2x512x1024_2_2_1_1_0_0.lhsIdx_val_of_single rfl i q
theorem rhs_ax0 (i : S2x512x1024.Idx) (q : dot_S2x512x3_S2x1024x3_S2x512x1024_2_2_1_1_0_0.contr.Idx) :
    (dot_S2x512x3_S2x1024x3_S2x512x1024_2_2_1_1_0_0.rhsIdx i q 0).val = (i 0).val := by
  unfold DotDims.rhsIdx
  rw [dif_pos (show (0 : Fin S2x1024x3.rank) ∈ dot_S2x512x3_S2x1024x3_S2x512x1024_2_2_1_1_0_0.rhsBatch by decide)]
  rfl
theorem rhs_ax1 (i : S2x512x1024.Idx) (q : dot_S2x512x3_S2x1024x3_S2x512x1024_2_2_1_1_0_0.contr.Idx) :
    (dot_S2x512x3_S2x1024x3_S2x512x1024_2_2_1_1_0_0.rhsIdx i q 1).val = (i 2).val := by
  unfold DotDims.rhsIdx
  rw [dif_neg (show ¬(1 : Fin S2x1024x3.rank) ∈ dot_S2x512x3_S2x1024x3_S2x512x1024_2_2_1_1_0_0.rhsBatch by decide), dif_pos (show (1 : Fin S2x1024x3.rank) ∈ dot_S2x512x3_S2x1024x3_S2x512x1024_2_2_1_1_0_0.rhsNonContracting by decide)]
  rfl
theorem rhs_ax2 (i : S2x512x1024.Idx) (q : dot_S2x512x3_S2x1024x3_S2x512x1024_2_2_1_1_0_0.contr.Idx) :
    (dot_S2x512x3_S2x1024x3_S2x512x1024_2_2_1_1_0_0.rhsIdx i q 2).val = (q ⟨0, by decide⟩).val :=
  dot_S2x512x3_S2x1024x3_S2x512x1024_2_2_1_1_0_0.rhsIdx_val_of_single rfl i q

/-- The batched product into the zero accumulator, at `(b, p, k)`: the inner product of row `p` of the left block and
    row `k` of the right one, in batch `b`. -/
theorem mm_apply (l : FVec Ideal S2x512x3 .bf16) (r : FVec Ideal S2x1024x3 .bf16) (b : Fin 2) (p : Fin 512) (k : Fin 1024) :
    matmul dot_S2x512x3_S2x1024x3_S2x512x1024_2_2_1_1_0_0 none l r (constant (F := Ideal) S2x512x1024 .f32 0x00000000#32) (ix3 b p k)
      = ∑ d : Fin 3, l (ix3 b p d) * r (ix3 b k d) := by
  simp only [matmul]
  rw [Ideal.matmul_constant_zero_apply, ← Equiv.sum_comp (contrEquiv1 dot_S2x512x3_S2x1024x3_S2x512x1024_2_2_1_1_0_0 3 rfl rfl).symm]
  refine Finset.sum_congr rfl fun d _ => ?_
  have hd := contrEquiv1_symm_val dot_S2x512x3_S2x1024x3_S2x512x1024_2_2_1_1_0_0 3 rfl rfl d
  have el : dot_S2x512x3_S2x1024x3_S2x512x1024_2_2_1_1_0_0.lhsIdx (ix3 b p k) ((contrEquiv1 dot_S2x512x3_S2x1024x3_S2x512x1024_2_2_1_1_0_0 3 rfl rfl).symm d) = ix3 b p d := funext fun a => Fin.ext (by
    match a with
    | ⟨0, _⟩ => exact lhs_ax0 _ _
    | ⟨1, _⟩ => exact lhs_ax1 _ _
    | ⟨2, _⟩ => exact (lhs_ax2 _ _).trans hd)
  have er : dot_S2x512x3_S2x1024x3_S2x512x1024_2_2_1_1_0_0.rhsIdx (ix3 b p k) ((contrEquiv1 dot_S2x512x3_S2x1024x3_S2x512x1024_2_2_1_1_0_0 3 rfl rfl).symm d) = ix3 b k d := funext fun a => Fin.ext (by
    match a with
    | ⟨0, _⟩ => exact rhs_ax0 _ _
    | ⟨1, _⟩ => exact rhs_ax1 _ _
    | ⟨2, _⟩ => exact (rhs_ax2 _ _).trans hd)
  rw [el, er]

/-! ## The two payloads at an index -/

/-- The first payload is the splat of `+∞`. -/
theorem pay1_apply (j : S2x512.Idx) : k0_pay1 (F := Ideal) j = ⊤ := by
  unfold k0_pay1
  refine (congrFun (shapeCast_self _ shapeCasts_S2x512_S2x512) j).trans ?_
  show Ideal.ofBits .f32 0x7F800000#32 = ⊤
  exact ofBits_inf_f32

/-- The second payload at `(b, p)`: the old value there, lowered to the least over the keys `k` of
    `max (‖x0[b,p]‖² + ‖x1[b,k]‖² − 2 · ⟨x0[b,p], x1[b,k]⟩) 0`. -/
theorem pay2_apply (x0 : Vec Ideal S2x512x3 .f32) (x1 : Vec Ideal S2x1024x3 .f32) (a : Vec Ideal S2x512 .f32) (b : Fin 2) (p : Fin 512) :
    k0_pay2 (F := Ideal) x0 x1 a (ix2 b p)
      = min (a (ix2 b p)) (Finset.univ.fold min ⊤ fun k : Fin 1024 =>
          max (((∑ d : Fin 3, x0 (ix3 b p d) * x0 (ix3 b p d)) + (∑ d : Fin 3, x1 (ix3 b k d) * x1 (ix3 b k d)))
                - Ideal.ofBits .f32 0x40000000#32 * ∑ d : Fin 3, x0 (ix3 b p d) * x1 (ix3 b k d)) 0) := by
  unfold k0_pay2
  refine (congrFun (shapeCast_self _ shapeCasts_S2x512_S2x512) (ix2 b p)).trans ?_
  refine (minimumf_apply _ _ _).trans ?_
  refine congrArg (min (a (ix2 b p))) ?_
  refine (rowmin _ _ _ b p).trans ?_
  refine congrArg (fun f => Finset.fold min ⊤ f Finset.univ) (funext fun k => ?_)
  refine (maximumf_apply _ _ _).trans ?_
  refine congrArg₂ max ?_ Ideal.ofBits_zero_f32
  refine (subf_apply _ _ _).trans ?_
  refine congrArg₂ (· - ·) ?_ ?_
  · refine (addf_apply _ _ _).trans ?_
    refine congrArg₂ (· + ·) ?_ ?_
    · refine (bcast_col _ b p k).trans ?_
      refine (cast_col _ b p 0).trans ?_
      exact rowsum_x0 _ _ _ b p
    · refine (bcast_row _ b p k).trans ?_
      refine (cast_row _ b 0 k).trans ?_
      exact rowsum_x1 _ _ _ b k
  · refine (mulf_apply _ _ _).trans ?_
    refine congrArg (Ideal.ofBits .f32 0x40000000#32 * ·) ?_
    exact mm_apply _ _ b p k

/-- The second call's payloads are the first call's. -/
theorem k1_pay1_eq : k1_pay1 (F := Ideal) = k0_pay1 := rfl
theorem k1_pay2_eq : k1_pay2 (F := Ideal) = k0_pay2 := rfl

end Cert.KernelIdeal.Pay

end
-- ==== Proof.Spec.lean ====
/- The mathematics of the claim, over the extended reals and with no program in sight.

   Two clouds of 2 × 8192 points in 3-space, `x` and `y`. For a query row `r` of one cloud and a key row `j` of the other
   (same batch `b`) the clamped squared distance is `max (|x_r|² + |y_j|² − two · ⟨x_r, y_j⟩) 0`, written through the
   squared norms and the inner product as both programs compute it; the doubling factor stays a parameter `two`, since
   both programs spell the same literal and nothing depends on its value. The chamfer value averages, over each cloud,
   the least such distance to the other cloud, adds the two directions, and averages over the batch.

   The kernel searches on the points as given and multiplies the result by 6400; the reference scales every coordinate
   by 80 first, and takes its second direction as the least entry of each COLUMN of the one distance matrix it builds.
   `kernelValue` and `referenceValue` are those two numbers; that they agree is the certificate's one law. -/
import Idealize.ShloMosaic.PureOps.Ideal.Laws

noncomputable section

namespace Cert.Spec

/-- Two batches of 8192 points in 3-space, over the extended reals. -/
abbrev Cloud := Fin 2 → Fin 8192 → Fin 3 → EReal

/-- The squared norm of row `r` of batch `b`. -/
def sqNorm (x : Cloud) (b : Fin 2) (r : Fin 8192) : EReal := ∑ d : Fin 3, x b r d * x b r d

/-- The inner product of row `r` of `x` with row `j` of `y`. -/
def inner (x y : Cloud) (b : Fin 2) (r j : Fin 8192) : EReal := ∑ d : Fin 3, x b r d * y b j d

/-- The clamped squared distance between row `r` of `x` and row `j` of `y`. -/
def dist (two : EReal) (x y : Cloud) (b : Fin 2) (r j : Fin 8192) : EReal :=
  max ((sqNorm x b r + sqNorm y b j) - two * inner x y b r j) 0

/-- The least distance from row `r` of `x` to a row of `y`. -/
def nearest (two : EReal) (x y : Cloud) (b : Fin 2) (r : Fin 8192) : EReal :=
  Finset.univ.fold min ⊤ fun j : Fin 8192 => dist two x y b r j

/-- The least distance from a row of `x` to row `j` of `y`: a column minimum of the same matrix. -/
def nearestCol (two : EReal) (x y : Cloud) (b : Fin 2) (j : Fin 8192) : EReal :=
  Finset.univ.fold min ⊤ fun r : Fin 8192 => dist two x y b r j

/-- The mean over 8192 rows of each of two tables, added, then the mean over the 2 batches. -/
def mean2 (f g : Fin 2 → Fin 8192 → EReal) : EReal :=
  (∑ b : Fin 2, ((∑ r : Fin 8192, f b r) * ((1 / 8192 : ℝ) : EReal) + (∑ r : Fin 8192, g b r) * ((1 / 8192 : ℝ) : EReal)))
    * ((1 / 2 : ℝ) : EReal)

/-- Every coordinate multiplied by `k`. -/
def scale (k : EReal) (x : Cloud) : Cloud := fun b r d => x b r d * k

/-- What the kernel computes: both directions on the points as given, the result multiplied by 6400. -/
def kernelValue (two : EReal) (x y : Cloud) : EReal :=
  mean2 (nearest two x y) (nearest two y x) * ((6400 : ℝ) : EReal)

/-- What the reference computes: the points scaled by 80, row minima one way and column minima the other. -/
def referenceValue (two : EReal) (x y : Cloud) : EReal :=
  mean2 (nearest two (scale ((80 : ℝ) : EReal) x) (scale ((80 : ℝ) : EReal) y))
    (nearestCol two (scale ((80 : ℝ) : EReal) x) (scale ((80 : ℝ) : EReal) y))

/-- A lower bound of the least distance is a lower bound of every distance. -/
theorem le_nearest_iff (two : EReal) (x y : Cloud) (b : Fin 2) (r : Fin 8192) (c : EReal) :
    c ≤ nearest two x y b r ↔ ∀ j : Fin 8192, c ≤ dist two x y b r j := by
  unfold nearest
  rw [Finset.le_fold_min]
  exact ⟨fun h j => h.2 j (Finset.mem_univ j), fun h => ⟨le_top, fun j _ => h j⟩⟩

end Cert.Spec

end
-- ==== Proof.Ideal.Cloud.lean ====
import proofs.«170469_j84043920048708_1_alg».proof.Proof.Spec
import Idealize.ShloMosaic.Lib.ValueIdx
import Idealize.ShloMosaic.PureOps.Ideal

noncomputable section

namespace Cert.KernelIdeal.Hand

open Idealize.ShloMosaic Idealize.ShloMosaic.ValueIdx

/-- An array of 2 × 8192 × 3 numbers as a cloud. -/
def cloudOf (x : (⟨3, ![2, 8192, 3]⟩ : Shape).Idx → EReal) : Cert.Spec.Cloud := fun b r d => x (ix3 b r d)

/-- The doubling factor, as both programs spell it. -/
abbrev twoW : EReal := Ideal.ofBits .f32 0x40000000#32

end Cert.KernelIdeal.Hand

end
-- ==== Proof.Ideal.Value0.lean ====
import proofs.«170469_j84043920048708_1_alg».proof.Proof.Ideal.Data0
import proofs.«170469_j84043920048708_1_alg».proof.Proof.Ideal.Payload
import proofs.«170469_j84043920048708_1_alg».proof.Proof.Spec
import proofs.«170469_j84043920048708_1_alg».proof.Proof.Ideal.Cloud
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL Idealize.SL.Sem
open Idealize.ShloMosaic.Pipeline (Dat Cfg Window)

/-! # Region 0 over the extended reals: what its output array ends holding

Read at the exact instance, the scratch after point `t` holds, for query row `p` of block `t / 8`, the least clamped
squared distance to the key rows of blocks `0 … t % 8`. A least element is carried by its universal property — `z` is
below it iff `z` is below every candidate — so that the induction over the points is about ranges of key rows and
never about the shape of a fold. At the last point of a row of the grid the range is all 8192 key rows; that point
copies the scratch to the output block, and the 16 output blocks tile the output array. -/

variable (V : (c : Dev nD) → (b : Ref sig .tc) → Buf (Elt Ideal) ((c : Thread nD τ).loc b))

/-- The region's first array (the query cloud) and its second (the key cloud), as found. -/
abbrev qarr0 (c : Dev nD) : S2x8192x3.Idx → EReal := V c (Pipeline.arrRef spec0 0)
abbrev karr0 (c : Dev nD) : S2x8192x3.Idx → EReal := V c (Pipeline.arrRef spec0 1)

/-- The body's update of the running minimum at an entry: the least of the old value and the clamped distances from the
    block's query row to each of the block's 1024 key rows. -/
theorem upd0_apply (x0 : Vec Ideal S2x512x3 .f32) (x1 : Vec Ideal S2x1024x3 .f32) (a : Vec Ideal S2x512 .f32) (b : Fin 2) (p : Fin 512) :
    k0_pay2 (F := Ideal) x0 x1 a (ix2 b p)
      = min (a (ix2 b p)) (Finset.univ.fold min ⊤ fun k : Fin 1024 =>
          max (((∑ d : Fin 3, x0 (ix3 b p d) * x0 (ix3 b p d)) + (∑ d : Fin 3, x1 (ix3 b k d) * x1 (ix3 b k d)))
                - Ideal.ofBits .f32 0x40000000#32 * ∑ d : Fin 3, x0 (ix3 b p d) * x1 (ix3 b k d)) 0) :=
  Cert.KernelIdeal.Pay.pay2_apply x0 x1 a b p
/-- The reset value is +∞ everywhere. -/
theorem top0_apply (j : S2x512.Idx) : k0_pay1 (F := Ideal) j = ⊤ := Cert.KernelIdeal.Pay.pay1_apply j

/-- The printed index maps over the grid: the query block and the output block move with `t / 8`, the key block with `t % 8`. -/
theorem idx_facts0 : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, _)

theorem lt_points0 (t : Fin cfg0.N) : t.val < 128 := lt_of_lt_of_eq t.isLt (show cfg0.N = 128 from N_0)

/-- Query row `p` of the block at point `t`, as a row of the cloud; -/
def qrow0 (t : Fin cfg0.N) (p : Fin 512) : Fin 8192 := ⟨512 * (t.val / 8) + p.val, by have := lt_points0 t; have := p.isLt; omega⟩
/-- key row `k` of the block at point `t`. -/
def krow0 (t : Fin cfg0.N) (k : Fin 1024) : Fin 8192 := ⟨1024 * (t.val % 8) + k.val, by have := k.isLt; omega⟩

/-- A block's entry is the array's at the block's offset: a block coordinate is index × size + the coordinate inside. -/
theorem qblk0_apply (c : Dev nD) (t : Fin cfg0.N) (b : Fin 2) (p : Fin 512) (d : Fin 3) :
    qblk0 V c t (ix3 b p d) = qarr0 V c (ix3 b (qrow0 t p) d) := by
  obtain ⟨e0, e1, e2, -⟩ := idx_facts0 t
  show qarr0 V c (((cfg0.win 0).blk t).view.emb (ix3 b p d)) = _
  refine congrArg (qarr0 V c) ?_
  funext a; apply Fin.ext
  match a with
  | ⟨0, _⟩ => show win0_0.index t (0 : Fin 3) * 2 + 1 * b.val = b.val; omega
  | ⟨1, _⟩ => show win0_0.index t (1 : Fin 3) * 512 + 1 * p.val = 512 * (t.val / 8) + p.val; omega
  | ⟨2, _⟩ => show win0_0.index t (2 : Fin 3) * 3 + 1 * d.val = d.val; omega

theorem kblk0_apply (c : Dev nD) (t : Fin cfg0.N) (b : Fin 2) (k : Fin 1024) (d : Fin 3) :
    kblk0 V c t (ix3 b k d) = karr0 V c (ix3 b (krow0 t k) d) := by
  obtain ⟨-, -, -, e0, e1, e2, -⟩ := idx_facts0 t
  show karr0 V c (((cfg0.win 1).blk t).view.emb (ix3 b k d)) = _
  refine congrArg (karr0 V c) ?_
  funext a; apply Fin.ext
  match a with
  | ⟨0, _⟩ => show win0_1.index t (0 : Fin 3) * 2 + 1 * b.val = b.val; omega
  | ⟨1, _⟩ => show win0_1.index t (1 : Fin 3) * 1024 + 1 * k.val = 1024 * (t.val % 8) + k.val; omega
  | ⟨2, _⟩ => show win0_1.index t (2 : Fin 3) * 3 + 1 * d.val = d.val; omega

/-- The body's distance between a query row and a key row of the two blocks is the clouds' distance between the rows. -/
theorem blockDist0_eq (c : Dev nD) (t : Fin cfg0.N) (b : Fin 2) (p : Fin 512) (k : Fin 1024) :
    max (((∑ d : Fin 3, qblk0 V c t (ix3 b p d) * qblk0 V c t (ix3 b p d)) + (∑ d : Fin 3, kblk0 V c t (ix3 b k d) * kblk0 V c t (ix3 b k d)))
          - twoW * ∑ d : Fin 3, qblk0 V c t (ix3 b p d) * kblk0 V c t (ix3 b k d)) 0
      = Cert.Spec.dist twoW (cloudOf (qarr0 V c)) (cloudOf (karr0 V c)) b (qrow0 t p) (krow0 t k) := by
  simp only [qblk0_apply, kblk0_apply]
  rfl

/-- One update of the running minimum, by lower bounds: below the update iff below the old value and below the distance
    to every key row of the point's block. -/
theorem pay0_le_iff (c : Dev nD) (t : Fin cfg0.N) (a : Vec Ideal S2x512 .f32) (b : Fin 2) (p : Fin 512) (z : EReal) :
    z ≤ k0_pay2 (F := Ideal) (qblk0 V c t) (kblk0 V c t) a (ix2 b p)
      ↔ z ≤ a (ix2 b p) ∧ ∀ k : Fin 1024, z ≤ Cert.Spec.dist twoW (cloudOf (qarr0 V c)) (cloudOf (karr0 V c)) b (qrow0 t p) (krow0 t k) := by
  rw [upd0_apply, le_min_iff, Finset.le_fold_min]
  constructor
  · rintro ⟨h1, -, h2⟩
    exact ⟨h1, fun k => (h2 k (Finset.mem_univ k)).trans_eq (blockDist0_eq V c t b p k)⟩
  · rintro ⟨h1, h2⟩
    exact ⟨h1, le_top, fun k _ => (h2 k).trans_eq (blockDist0_eq V c t b p k).symm⟩

/-- THE RUNNING MINIMUM after point `t`: below it iff below the distance to every key row of the blocks seen so far in
    this row of the grid. -/
theorem acc0_le_iff (c : Dev nD) : ∀ (n : ℕ) (hn : n < cfg0.N) (b : Fin 2) (p : Fin 512) (z : EReal),
    z ≤ acc0 V c n hn (ix2 b p)
      ↔ ∀ j : Fin 8192, j.val < 1024 * (n % 8 + 1) →
          z ≤ Cert.Spec.dist twoW (cloudOf (qarr0 V c)) (cloudOf (karr0 V c)) b (qrow0 ⟨n, hn⟩ p) j := by
  intro n
  induction n with
  | zero =>
    intro hn b p z
    rw [acc0_reset V c ⟨0, hn⟩ (Nat.zero_mod _), pay0_le_iff]
    constructor
    · rintro ⟨-, h⟩ j hj
      have := h ⟨j.val, by omega⟩
      exact (show krow0 ⟨0, hn⟩ ⟨j.val, by omega⟩ = j from Fin.ext (by show 1024 * (0 % 8) + j.val = j.val; omega)) ▸ this
    · intro h
      exact ⟨(top0_apply _).symm ▸ le_top, fun k => h _ (by show 1024 * (0 % 8) + k.val < _; have := k.isLt; omega)⟩
  | succ n ih =>
    intro hn b p z
    have hN : n + 1 < 128 := lt_points0 ⟨n + 1, hn⟩
    by_cases h0 : (n + 1) % 8 = 0
    · rw [acc0_reset V c ⟨n + 1, hn⟩ h0, pay0_le_iff]
      constructor
      · rintro ⟨-, h⟩ j hj
        have hj' : j.val < 1024 := by omega
        have := h ⟨j.val, hj'⟩
        exact (show krow0 ⟨n + 1, hn⟩ ⟨j.val, hj'⟩ = j from Fin.ext (by show 1024 * ((n + 1) % 8) + j.val = j.val; omega)) ▸ this
      · intro h
        exact ⟨(top0_apply _).symm ▸ le_top, fun k => h _ (by show 1024 * ((n + 1) % 8) + k.val < _; have := k.isLt; omega)⟩
    · rw [acc0_step V c ⟨n + 1, hn⟩ h0, pay0_le_iff]
      have hrow : qrow0 ⟨n, Nat.lt_of_succ_lt hn⟩ p = qrow0 ⟨n + 1, hn⟩ p := Fin.ext (by show 512 * (n / 8) + p.val = 512 * ((n + 1) / 8) + p.val; omega)
      have ih' := ih (Nat.lt_of_succ_lt hn) b p z
      rw [hrow] at ih'
      constructor
      · rintro ⟨hold, hnew⟩ j hj
        by_cases hlt : j.val < 1024 * (n % 8 + 1)
        · exact (ih'.mp hold) j hlt
        · have hk : j.val - 1024 * ((n + 1) % 8) < 1024 := by omega
          have := hnew ⟨j.val - 1024 * ((n + 1) % 8), hk⟩
          exact (show krow0 ⟨n + 1, hn⟩ ⟨j.val - 1024 * ((n + 1) % 8), hk⟩ = j from Fin.ext (by show 1024 * ((n + 1) % 8) + (j.val - 1024 * ((n + 1) % 8)) = j.val; omega)) ▸ this
      · intro h
        refine ⟨ih'.mpr fun j hj => h j (by omega), fun k => h _ (by show 1024 * ((n + 1) % 8) + k.val < _; have := k.isLt; omega)⟩

/-- What the output array holds in the end: for every query row, the least distance to a key row. -/
def rowMin0 (c : Dev nD) : S2x8192.Idx → EReal :=
  fun i => Cert.Spec.nearest twoW (cloudOf (qarr0 V c)) (cloudOf (karr0 V c)) (i 0) (i 1)

/-- What a point that copies out writes back is its block of that array. -/
theorem flushed0_eq (c : Dev nD) (t : Fin cfg0.N) (hf : (cfg0.win 2).flush t = true) :
    (dat0 V c).flushed 2 t = ((cfg0.win 2).blk t).view.read (Elt Ideal) (rowMin0 V c) := by
  have h7 : t.val % 8 = 7 := (flush0_2 t).mp hf
  obtain ⟨-, -, -, -, -, -, e0, e1⟩ := idx_facts0 t
  show (cfg0.win 2).cut (grid0.coords t) ((dat0 V c).after 2 t) = _
  rw [after0_2]
  funext j
  obtain ⟨b, p, rfl⟩ : ∃ (b : Fin 2) (p : Fin 512), j = ix2 b p := ⟨j 0, j 1, eq_ix2 j⟩
  show acc0 V c t.val t.isLt (ix2 b p) = rowMin0 V c (((cfg0.win 2).blk t).view.emb (ix2 b p))
  have he : ((cfg0.win 2).blk t).view.emb (ix2 b p) = ix2 b (qrow0 t p) := by
    funext a; apply Fin.ext
    match a with
    | ⟨0, _⟩ => show win0_2.index t (0 : Fin 2) * 2 + 1 * b.val = b.val; omega
    | ⟨1, _⟩ => show win0_2.index t (1 : Fin 2) * 512 + 1 * p.val = 512 * (t.val / 8) + p.val; omega
  rw [he]
  show acc0 V c t.val t.isLt (ix2 b p) = Cert.Spec.nearest twoW (cloudOf (qarr0 V c)) (cloudOf (karr0 V c)) b (qrow0 t p)
  refine eq_of_forall_le_iff fun z => ?_
  rw [acc0_le_iff V c t.val t.isLt b p z, Cert.Spec.le_nearest_iff]
  exact ⟨fun h j => h j (by have := j.isLt; omega), fun h j _ => h j⟩

/-- Every entry of the output array is in the block of a point that copies out. -/
theorem cover0 (i : S2x8192.Idx) : ∃ t : Fin cfg0.N, (cfg0.win 2).flush t = true ∧ i ∈ ((cfg0.win 2).blk t).view.set := by
  have h0 : (i 0).val < 2 := (i 0).isLt
  have h1 : (i 1).val < 8192 := (i 1).isLt
  have hN : 8 * ((i 1).val / 512) + 7 < cfg0.N := by rw [show cfg0.N = 128 from N_0]; omega
  refine ⟨⟨8 * ((i 1).val / 512) + 7, hN⟩, (flush0_2 _).mpr (by show (8 * ((i 1).val / 512) + 7) % 8 = 7; omega), ?_⟩
  obtain ⟨-, -, -, -, -, -, e0, e1⟩ := idx_facts0 ⟨8 * ((i 1).val / 512) + 7, hN⟩
  show i ∈ ((View.whole main_v0).slice (win0_2.rect ⟨8 * ((i 1).val / 512) + 7, hN⟩)).set
  rw [View.set_slice_whole, Rect.mem_set_unit]
  intro a
  match a with
  | ⟨0, _⟩ =>
    show win0_2.index ⟨8 * ((i 1).val / 512) + 7, hN⟩ (0 : Fin 2) * 2 ≤ (i 0).val ∧ (i 0).val < win0_2.index ⟨8 * ((i 1).val / 512) + 7, hN⟩ (0 : Fin 2) * 2 + 2
    omega
  | ⟨1, _⟩ =>
    show win0_2.index ⟨8 * ((i 1).val / 512) + 7, hN⟩ (1 : Fin 2) * 512 ≤ (i 1).val ∧ (i 1).val < win0_2.index ⟨8 * ((i 1).val / 512) + 7, hN⟩ (1 : Fin 2) * 512 + 512
    have : (8 * ((i 1).val / 512) + 7) / 8 = (i 1).val / 512 := by omega
    simp only [] at e1
    omega

/-- THE OUTPUT ARRAY after the region: every query row's least distance to the key cloud. -/
theorem final0 (c : Dev nD) : (dat0 V c).arrAt 2 cfg0.N = rowMin0 V c :=
  (dat0 V c).arrAt_eq_of_cover 2 (rowMin0 V c) (fun t hf => flushed0_eq V c t hf) (cover0)

end Cert.KernelIdeal.Hand

end
-- ==== Proof.Ideal.Value1.lean ====
import proofs.«170469_j84043920048708_1_alg».proof.Proof.Ideal.Data1
import proofs.«170469_j84043920048708_1_alg».proof.Proof.Ideal.Payload
import proofs.«170469_j84043920048708_1_alg».proof.Proof.Spec
import proofs.«170469_j84043920048708_1_alg».proof.Proof.Ideal.Cloud
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL Idealize.SL.Sem
open Idealize.ShloMosaic.Pipeline (Dat Cfg Window)

/-! # Region 1 over the extended reals: what its output array ends holding

Read at the exact instance, the scratch after point `t` holds, for query row `p` of block `t / 8`, the least clamped
squared distance to the key rows of blocks `0 … t % 8`. A least element is carried by its universal property — `z` is
below it iff `z` is below every candidate — so that the induction over the points is about ranges of key rows and
never about the shape of a fold. At the last point of a row of the grid the range is all 8192 key rows; that point
copies the scratch to the output block, and the 16 output blocks tile the output array. -/

variable (V : (c : Dev nD) → (b : Ref sig .tc) → Buf (Elt Ideal) ((c : Thread nD τ).loc b))

/-- The region's first array (the query cloud) and its second (the key cloud), as found. -/
abbrev qarr1 (c : Dev nD) : S2x8192x3.Idx → EReal := V c (Pipeline.arrRef spec1 0)
abbrev karr1 (c : Dev nD) : S2x8192x3.Idx → EReal := V c (Pipeline.arrRef spec1 1)

/-- The body's update of the running minimum at an entry: the least of the old value and the clamped distances from the
    block's query row to each of the block's 1024 key rows. -/
theorem upd1_apply (x0 : Vec Ideal S2x512x3 .f32) (x1 : Vec Ideal S2x1024x3 .f32) (a : Vec Ideal S2x512 .f32) (b : Fin 2) (p : Fin 512) :
    k1_pay2 (F := Ideal) x0 x1 a (ix2 b p)
      = min (a (ix2 b p)) (Finset.univ.fold min ⊤ fun k : Fin 1024 =>
          max (((∑ d : Fin 3, x0 (ix3 b p d) * x0 (ix3 b p d)) + (∑ d : Fin 3, x1 (ix3 b k d) * x1 (ix3 b k d)))
                - Ideal.ofBits .f32 0x40000000#32 * ∑ d : Fin 3, x0 (ix3 b p d) * x1 (ix3 b k d)) 0) :=
  Cert.KernelIdeal.Pay.pay2_apply x0 x1 a b p
/-- The reset value is +∞ everywhere. -/
theorem top1_apply (j : S2x512.Idx) : k1_pay1 (F := Ideal) j = ⊤ := Cert.KernelIdeal.Pay.pay1_apply j

/-- The printed index maps over the grid: the query block and the output block move with `t / 8`, the key block with `t % 8`. -/
theorem idx_facts1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8 :=
  (by decide +kernel : ∀ t : Fin grid1.N, _)

theorem lt_points1 (t : Fin cfg1.N) : t.val < 128 := lt_of_lt_of_eq t.isLt (show cfg1.N = 128 from N_1)

/-- Query row `p` of the block at point `t`, as a row of the cloud; -/
def qrow1 (t : Fin cfg1.N) (p : Fin 512) : Fin 8192 := ⟨512 * (t.val / 8) + p.val, by have := lt_points1 t; have := p.isLt; omega⟩
/-- key row `k` of the block at point `t`. -/
def krow1 (t : Fin cfg1.N) (k : Fin 1024) : Fin 8192 := ⟨1024 * (t.val % 8) + k.val, by have := k.isLt; omega⟩

/-- A block's entry is the array's at the block's offset: a block coordinate is index × size + the coordinate inside. -/
theorem qblk1_apply (c : Dev nD) (t : Fin cfg1.N) (b : Fin 2) (p : Fin 512) (d : Fin 3) :
    qblk1 V c t (ix3 b p d) = qarr1 V c (ix3 b (qrow1 t p) d) := by
  obtain ⟨e0, e1, e2, -⟩ := idx_facts1 t
  show qarr1 V c (((cfg1.win 0).blk t).view.emb (ix3 b p d)) = _
  refine congrArg (qarr1 V c) ?_
  funext a; apply Fin.ext
  match a with
  | ⟨0, _⟩ => show win1_0.index t (0 : Fin 3) * 2 + 1 * b.val = b.val; omega
  | ⟨1, _⟩ => show win1_0.index t (1 : Fin 3) * 512 + 1 * p.val = 512 * (t.val / 8) + p.val; omega
  | ⟨2, _⟩ => show win1_0.index t (2 : Fin 3) * 3 + 1 * d.val = d.val; omega

theorem kblk1_apply (c : Dev nD) (t : Fin cfg1.N) (b : Fin 2) (k : Fin 1024) (d : Fin 3) :
    kblk1 V c t (ix3 b k d) = karr1 V c (ix3 b (krow1 t k) d) := by
  obtain ⟨-, -, -, e0, e1, e2, -⟩ := idx_facts1 t
  show karr1 V c (((cfg1.win 1).blk t).view.emb (ix3 b k d)) = _
  refine congrArg (karr1 V c) ?_
  funext a; apply Fin.ext
  match a with
  | ⟨0, _⟩ => show win1_1.index t (0 : Fin 3) * 2 + 1 * b.val = b.val; omega
  | ⟨1, _⟩ => show win1_1.index t (1 : Fin 3) * 1024 + 1 * k.val = 1024 * (t.val % 8) + k.val; omega
  | ⟨2, _⟩ => show win1_1.index t (2 : Fin 3) * 3 + 1 * d.val = d.val; omega

/-- The body's distance between a query row and a key row of the two blocks is the clouds' distance between the rows. -/
theorem blockDist1_eq (c : Dev nD) (t : Fin cfg1.N) (b : Fin 2) (p : Fin 512) (k : Fin 1024) :
    max (((∑ d : Fin 3, qblk1 V c t (ix3 b p d) * qblk1 V c t (ix3 b p d)) + (∑ d : Fin 3, kblk1 V c t (ix3 b k d) * kblk1 V c t (ix3 b k d)))
          - twoW * ∑ d : Fin 3, qblk1 V c t (ix3 b p d) * kblk1 V c t (ix3 b k d)) 0
      = Cert.Spec.dist twoW (cloudOf (qarr1 V c)) (cloudOf (karr1 V c)) b (qrow1 t p) (krow1 t k) := by
  simp only [qblk1_apply, kblk1_apply]
  rfl

/-- One update of the running minimum, by lower bounds: below the update iff below the old value and below the distance
    to every key row of the point's block. -/
theorem pay1_le_iff (c : Dev nD) (t : Fin cfg1.N) (a : Vec Ideal S2x512 .f32) (b : Fin 2) (p : Fin 512) (z : EReal) :
    z ≤ k1_pay2 (F := Ideal) (qblk1 V c t) (kblk1 V c t) a (ix2 b p)
      ↔ z ≤ a (ix2 b p) ∧ ∀ k : Fin 1024, z ≤ Cert.Spec.dist twoW (cloudOf (qarr1 V c)) (cloudOf (karr1 V c)) b (qrow1 t p) (krow1 t k) := by
  rw [upd1_apply, le_min_iff, Finset.le_fold_min]
  constructor
  · rintro ⟨h1, -, h2⟩
    exact ⟨h1, fun k => (h2 k (Finset.mem_univ k)).trans_eq (blockDist1_eq V c t b p k)⟩
  · rintro ⟨h1, h2⟩
    exact ⟨h1, le_top, fun k _ => (h2 k).trans_eq (blockDist1_eq V c t b p k).symm⟩

/-- THE RUNNING MINIMUM after point `t`: below it iff below the distance to every key row of the blocks seen so far in
    this row of the grid. -/
theorem acc1_le_iff (c : Dev nD) : ∀ (n : ℕ) (hn : n < cfg1.N) (b : Fin 2) (p : Fin 512) (z : EReal),
    z ≤ acc1 V c n hn (ix2 b p)
      ↔ ∀ j : Fin 8192, j.val < 1024 * (n % 8 + 1) →
          z ≤ Cert.Spec.dist twoW (cloudOf (qarr1 V c)) (cloudOf (karr1 V c)) b (qrow1 ⟨n, hn⟩ p) j := by
  intro n
  induction n with
  | zero =>
    intro hn b p z
    rw [acc1_reset V c ⟨0, hn⟩ (Nat.zero_mod _), pay1_le_iff]
    constructor
    · rintro ⟨-, h⟩ j hj
      have := h ⟨j.val, by omega⟩
      exact (show krow1 ⟨0, hn⟩ ⟨j.val, by omega⟩ = j from Fin.ext (by show 1024 * (0 % 8) + j.val = j.val; omega)) ▸ this
    · intro h
      exact ⟨(top1_apply _).symm ▸ le_top, fun k => h _ (by show 1024 * (0 % 8) + k.val < _; have := k.isLt; omega)⟩
  | succ n ih =>
    intro hn b p z
    have hN : n + 1 < 128 := lt_points1 ⟨n + 1, hn⟩
    by_cases h0 : (n + 1) % 8 = 0
    · rw [acc1_reset V c ⟨n + 1, hn⟩ h0, pay1_le_iff]
      constructor
      · rintro ⟨-, h⟩ j hj
        have hj' : j.val < 1024 := by omega
        have := h ⟨j.val, hj'⟩
        exact (show krow1 ⟨n + 1, hn⟩ ⟨j.val, hj'⟩ = j from Fin.ext (by show 1024 * ((n + 1) % 8) + j.val = j.val; omega)) ▸ this
      · intro h
        exact ⟨(top1_apply _).symm ▸ le_top, fun k => h _ (by show 1024 * ((n + 1) % 8) + k.val < _; have := k.isLt; omega)⟩
    · rw [acc1_step V c ⟨n + 1, hn⟩ h0, pay1_le_iff]
      have hrow : qrow1 ⟨n, Nat.lt_of_succ_lt hn⟩ p = qrow1 ⟨n + 1, hn⟩ p := Fin.ext (by show 512 * (n / 8) + p.val = 512 * ((n + 1) / 8) + p.val; omega)
      have ih' := ih (Nat.lt_of_succ_lt hn) b p z
      rw [hrow] at ih'
      constructor
      · rintro ⟨hold, hnew⟩ j hj
        by_cases hlt : j.val < 1024 * (n % 8 + 1)
        · exact (ih'.mp hold) j hlt
        · have hk : j.val - 1024 * ((n + 1) % 8) < 1024 := by omega
          have := hnew ⟨j.val - 1024 * ((n + 1) % 8), hk⟩
          exact (show krow1 ⟨n + 1, hn⟩ ⟨j.val - 1024 * ((n + 1) % 8), hk⟩ = j from Fin.ext (by show 1024 * ((n + 1) % 8) + (j.val - 1024 * ((n + 1) % 8)) = j.val; omega)) ▸ this
      · intro h
        refine ⟨ih'.mpr fun j hj => h j (by omega), fun k => h _ (by show 1024 * ((n + 1) % 8) + k.val < _; have := k.isLt; omega)⟩

/-- What the output array holds in the end: for every query row, the least distance to a key row. -/
def rowMin1 (c : Dev nD) : S2x8192.Idx → EReal :=
  fun i => Cert.Spec.nearest twoW (cloudOf (qarr1 V c)) (cloudOf (karr1 V c)) (i 0) (i 1)

/-- What a point that copies out writes back is its block of that array. -/
theorem flushed1_eq (c : Dev nD) (t : Fin cfg1.N) (hf : (cfg1.win 2).flush t = true) :
    (dat1 V c).flushed 2 t = ((cfg1.win 2).blk t).view.read (Elt Ideal) (rowMin1 V c) := by
  have h7 : t.val % 8 = 7 := (flush1_2 t).mp hf
  obtain ⟨-, -, -, -, -, -, e0, e1⟩ := idx_facts1 t
  show (cfg1.win 2).cut (grid1.coords t) ((dat1 V c).after 2 t) = _
  rw [after1_2]
  funext j
  obtain ⟨b, p, rfl⟩ : ∃ (b : Fin 2) (p : Fin 512), j = ix2 b p := ⟨j 0, j 1, eq_ix2 j⟩
  show acc1 V c t.val t.isLt (ix2 b p) = rowMin1 V c (((cfg1.win 2).blk t).view.emb (ix2 b p))
  have he : ((cfg1.win 2).blk t).view.emb (ix2 b p) = ix2 b (qrow1 t p) := by
    funext a; apply Fin.ext
    match a with
    | ⟨0, _⟩ => show win1_2.index t (0 : Fin 2) * 2 + 1 * b.val = b.val; omega
    | ⟨1, _⟩ => show win1_2.index t (1 : Fin 2) * 512 + 1 * p.val = 512 * (t.val / 8) + p.val; omega
  rw [he]
  show acc1 V c t.val t.isLt (ix2 b p) = Cert.Spec.nearest twoW (cloudOf (qarr1 V c)) (cloudOf (karr1 V c)) b (qrow1 t p)
  refine eq_of_forall_le_iff fun z => ?_
  rw [acc1_le_iff V c t.val t.isLt b p z, Cert.Spec.le_nearest_iff]
  exact ⟨fun h j => h j (by have := j.isLt; omega), fun h j _ => h j⟩

/-- Every entry of the output array is in the block of a point that copies out. -/
theorem cover1 (i : S2x8192.Idx) : ∃ t : Fin cfg1.N, (cfg1.win 2).flush t = true ∧ i ∈ ((cfg1.win 2).blk t).view.set := by
  have h0 : (i 0).val < 2 := (i 0).isLt
  have h1 : (i 1).val < 8192 := (i 1).isLt
  have hN : 8 * ((i 1).val / 512) + 7 < cfg1.N := by rw [show cfg1.N = 128 from N_1]; omega
  refine ⟨⟨8 * ((i 1).val / 512) + 7, hN⟩, (flush1_2 _).mpr (by show (8 * ((i 1).val / 512) + 7) % 8 = 7; omega), ?_⟩
  obtain ⟨-, -, -, -, -, -, e0, e1⟩ := idx_facts1 ⟨8 * ((i 1).val / 512) + 7, hN⟩
  show i ∈ ((View.whole main_v1).slice (win1_2.rect ⟨8 * ((i 1).val / 512) + 7, hN⟩)).set
  rw [View.set_slice_whole, Rect.mem_set_unit]
  intro a
  match a with
  | ⟨0, _⟩ =>
    show win1_2.index ⟨8 * ((i 1).val / 512) + 7, hN⟩ (0 : Fin 2) * 2 ≤ (i 0).val ∧ (i 0).val < win1_2.index ⟨8 * ((i 1).val / 512) + 7, hN⟩ (0 : Fin 2) * 2 + 2
    omega
  | ⟨1, _⟩ =>
    show win1_2.index ⟨8 * ((i 1).val / 512) + 7, hN⟩ (1 : Fin 2) * 512 ≤ (i 1).val ∧ (i 1).val < win1_2.index ⟨8 * ((i 1).val / 512) + 7, hN⟩ (1 : Fin 2) * 512 + 512
    have : (8 * ((i 1).val / 512) + 7) / 8 = (i 1).val / 512 := by omega
    simp only [] at e1
    omega

/-- THE OUTPUT ARRAY after the region: every query row's least distance to the key cloud. -/
theorem final1 (c : Dev nD) : (dat1 V c).arrAt 2 cfg1.N = rowMin1 V c :=
  (dat1 V c).arrAt_eq_of_cover 2 (rowMin1 V c) (fun t hf => flushed1_eq V c t hf) (cover1)

end Cert.KernelIdeal.Hand

end
-- ==== Proof.Ideal.Tail.lean ====
import proofs.«170469_j84043920048708_1_alg».proof.Proof.Gen.KernelIdeal
import proofs.«170469_j84043920048708_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- The host's averaging of the two regions' results: each array of 2 × 8192 least distances summed over its rows and
    divided by 8192, the two added, summed over the 2 batches and divided by 2, then multiplied by 6400. -/
def avgTail (v0 v1 : (⟨S2x8192, .f32⟩ : BufTy).Contents (Elt F)) : (⟨S_, .f32⟩ : BufTy).Contents (Elt F) :=
  mulf
    (Host.divf
      (Host.reduceAdd
        (addf
          (Host.divf (Host.reduceAdd v0 (constant S_ .f32 0x00000000#32) reducesTo_S2x8192_S2_d1 h_S_)
            (broadcastInDim S2 ![] bcast_S_S2 (constant S_ .f32 0x46000000#32)))
          (Host.divf (Host.reduceAdd v1 (constant S_ .f32 0x00000000#32) reducesTo_S2x8192_S2_d1 h_S_)
            (broadcastInDim S2 ![] bcast_S_S2 (constant S_ .f32 0x46000000#32))))
        (constant S_ .f32 0x00000000#32) reducesTo_S2_S_d0 h_S_)
      (constant S_ .f32 0x40000000#32))
    (constant S_ .f32 0x45C80000#32)

/-! ### The literal words, as the extended reals they denote -/

/-- The word of `8192.0` denotes the real `8192`. -/
theorem ofBits_8192 : Ideal.ofBits .f32 0x46000000#32 = ((8192 : ℝ) : EReal) := by
  simp [Ideal.ofBits, Ideal.ieee, -EReal.coe_mul]; norm_num

/-- The word of `2.0` denotes the real `2`. -/
theorem ofBits_two : Ideal.ofBits .f32 0x40000000#32 = ((2 : ℝ) : EReal) := by
  simp [Ideal.ofBits, Ideal.ieee, -EReal.coe_mul]; norm_num

/-- The word of `6400.0` denotes the real `6400`. -/
theorem ofBits_6400 : Ideal.ofBits .f32 0x45C80000#32 = ((6400 : ℝ) : EReal) := by
  simp [Ideal.ofBits, Ideal.ieee, -EReal.coe_mul]; norm_num

/-! ### The operations, read at an index -/

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  exact (Equiv.sum_comp e.symm f).symm

/-- The sum over axis 1 from the zero word, at batch `b`: the sum of row `b`. -/
theorem rowSum_apply (v : (⟨S2x8192, .f32⟩ : BufTy).Contents (Elt Ideal)) (b : Fin 2) :
    Host.reduceAdd (F := Ideal) v (constant S_ .f32 0x00000000#32) reducesTo_S2x8192_S2_d1 h_S_ (ix1 b)
      = ∑ r : Fin 8192, v (ix2 b r) := by
  simp only [Host.reduceAdd, Ideal.hostReduceAdd_def]
  rw [Ideal.hostReduceAdd_single reducesTo_S2x8192_S2_d1 (by decide), constant_apply, Ideal.ofBits_zero_f32, zero_add]
  refine Finset.sum_congr rfl fun k _ => ?_
  exact congrArg v (funext fun a => Fin.ext (by match a with | ⟨0, _⟩ => rfl | ⟨1, _⟩ => rfl))

/-- The sum over the batch axis from the zero word: the sum of the two entries. -/
theorem batchSum_apply (w : (⟨S2, .f32⟩ : BufTy).Contents (Elt Ideal)) (i : S_.Idx) :
    Host.reduceAdd (F := Ideal) w (constant S_ .f32 0x00000000#32) reducesTo_S2_S_d0 h_S_ i = ∑ b : Fin 2, w (ix1 b) := by
  simp only [Host.reduceAdd, Ideal.hostReduceAdd_def]
  rw [Ideal.hostReduceAdd_total reducesTo_S2_S_d0 (fun a => a.elim0), constant_apply, Ideal.ofBits_zero_f32, zero_add]
  exact sum_idx1 w

/-- A row sum divided by the broadcast `8192.0`, at batch `b`: the mean of row `b`. -/
theorem rowMean_apply (v : (⟨S2x8192, .f32⟩ : BufTy).Contents (Elt Ideal)) (b : Fin 2) :
    Host.divf (F := Ideal) (Host.reduceAdd v (constant S_ .f32 0x00000000#32) reducesTo_S2x8192_S2_d1 h_S_)
        (broadcastInDim S2 ![] bcast_S_S2 (constant S_ .f32 0x46000000#32)) (ix1 b)
      = (∑ r : Fin 8192, v (ix2 b r)) * ((1 / 8192 : ℝ) : EReal) := by
  show Ideal.div (Host.reduceAdd (F := Ideal) v (constant S_ .f32 0x00000000#32) reducesTo_S2x8192_S2_d1 h_S_ (ix1 b))
      (broadcastInDim S2 ![] bcast_S_S2 (constant (F := Ideal) S_ .f32 0x46000000#32) (ix1 b)) = _
  rw [rowSum_apply, broadcastInDim_apply _ bcast_S_S2 _ (ix1 b) ix0 (fun a => a.elim0), constant_apply, ofBits_8192,
    Ideal.div_coe (by norm_num)]

/-- Over the extended reals it is the mean of means of the specification, times 6400. -/
theorem avgTail_eq (v0 v1 : (⟨S2x8192, .f32⟩ : BufTy).Contents (Elt Ideal)) :
    avgTail (F := Ideal) v0 v1
      = fun _ => Cert.Spec.mean2 (fun b r => v0 (ix2 b r)) (fun b r => v1 (ix2 b r)) * ((6400 : ℝ) : EReal) := by
  funext i
  unfold avgTail
  show Ideal.div (Host.reduceAdd (F := Ideal) _ (constant S_ .f32 0x00000000#32) reducesTo_S2_S_d0 h_S_ i)
      (Ideal.ofBits .f32 0x40000000#32) * Ideal.ofBits .f32 0x45C80000#32 = _
  rw [batchSum_apply, ofBits_two, ofBits_6400, Ideal.div_coe (by norm_num)]
  unfold Cert.Spec.mean2
  refine congrArg (· * _) (congrArg (· * _) (Finset.sum_congr rfl fun b _ => ?_))
  rw [addf_apply, rowMean_apply, rowMean_apply]

end Cert.KernelIdeal.Hand

end
-- ==== Proof.Ideal.Result.lean ====
import proofs.«170469_j84043920048708_1_alg».proof.Proof.Ideal.Run
import proofs.«170469_j84043920048708_1_alg».proof.Proof.Ideal.Value0
import proofs.«170469_j84043920048708_1_alg».proof.Proof.Ideal.Value1
import proofs.«170469_j84043920048708_1_alg».proof.Proof.Ideal.Tail
import Idealize.ShloMosaic.Lib.StableHlo.Run

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx
open Idealize.SL Idealize.SL.Sem
open Idealize.ShloMosaic.Pipeline (Dat Cfg Window)

/-! # The kernel's result over the extended reals

Region 0 leaves in its output array, for every point of the first cloud, the least clamped squared distance to the
second cloud; region 1 the same with the clouds exchanged (its query window reads the second argument and its key window
the first, which region 0 left as launched); the host stretch averages the two arrays and multiplies by 6400. So the
result is the specification's `kernelValue` of the two argument arrays. -/

variable (m : (ℓ : Loc nD τ sig) → Buf (Elt Ideal) ℓ) (ρ : Dev nD → PrngReg)

/-- The two arguments as clouds. -/
abbrev cloudP (c : Dev nD) : Cert.Spec.Cloud := cloudOf (m ((c : Thread nD τ).loc main_arg0))
abbrev cloudG (c : Dev nD) : Cert.Spec.Cloud := cloudOf (m ((c : Thread nD τ).loc main_arg1))

/-- Region 0 reads the arguments and leaves them as launched. -/
theorem W1_main_arg0 (c : Dev nD) : W1 m ρ c (Proc.devRef .tc main_arg0) = m ((c : Thread nD τ).loc main_arg0) :=
  (W1_arr m ρ c 0).trans (((dat0 (U0 m ρ) c).arrAt_in 0 rfl _).trans (A_eq0 (U0 m ρ) c 0))
theorem W1_main_arg1 (c : Dev nD) : W1 m ρ c (Proc.devRef .tc main_arg1) = m ((c : Thread nD τ).loc main_arg1) :=
  (W1_arr m ρ c 1).trans (((dat0 (U0 m ρ) c).arrAt_in 1 rfl _).trans (A_eq0 (U0 m ρ) c 1))

/-- After both regions the first result array holds region 0's row minima (region 1 does not touch it), -/
theorem W2_main_v0 (c : Dev nD) : W2 m ρ c (Proc.devRef .tc main_v0) = rowMin0 (U0 m ρ) c :=
  (W2_of_ne m ρ c main_v0 (by decide)).trans ((W1_arr m ρ c 2).trans (final0 (U0 m ρ) c))
/-- and the second region 1's. -/
theorem W2_main_v1 (c : Dev nD) : W2 m ρ c (Proc.devRef .tc main_v1) = rowMin1 (U1 m ρ) c :=
  (W2_arr m ρ c 2).trans (final1 (U1 m ρ) c)

/-- Region 0's row minima are the first cloud's nearest distances to the second, -/
theorem rowMin0_eq (c : Dev nD) :
    rowMin0 (U0 m ρ) c = fun i => Cert.Spec.nearest twoW (cloudP m c) (cloudG m c) (i 0) (i 1) := rfl
/-- region 1's the second cloud's to the first. -/
theorem rowMin1_eq (c : Dev nD) :
    rowMin1 (U1 m ρ) c = fun i => Cert.Spec.nearest twoW (cloudG m c) (cloudP m c) (i 0) (i 1) := by
  unfold rowMin1
  have e1 : qarr1 (U1 m ρ) c = m ((c : Thread nD τ).loc main_arg1) := W1_main_arg1 m ρ c
  have e2 : karr1 (U1 m ρ) c = m ((c : Thread nD τ).loc main_arg0) := W1_main_arg0 m ρ c
  rw [e1, e2]

/-- THE RESULT: the host stretch's last buffer after the run. -/
theorem result_value (c : Dev nD) :
    W3 m ρ c (Proc.devRef .tc main_v11) = fun _ => Cert.Spec.kernelValue twoW (cloudP m c) (cloudG m c) := by
  show StableHlo.after hostOps2 (W2 m ρ c) (Proc.devRef .tc main_v11) = _
  after_results
  show avgTail (F := Ideal) (W2 m ρ c (Proc.devRef .tc main_v0)) (W2 m ρ c (Proc.devRef .tc main_v1)) = _
  rw [W2_main_v0, W2_main_v1, rowMin0_eq, rowMin1_eq, avgTail_eq]
  rfl

/-- Every weakly fair execution of @main ends with the result buffer at that value and the arguments as launched. -/
theorem run_value : θ_run defs (onTc (τ := τ) (main (F := Ideal))) ⟨m, fun _ => 0, ρ⟩ (fun r => ∀ c : Dev nD,
      r.2.mem ((c.tc : Thread nD τ).loc main_v11) = (fun _ => Cert.Spec.kernelValue twoW (cloudP m c) (cloudG m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v11 (by decide))).trans (result_value m ρ c),
     (h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.RefValue.lean ====
import proofs.«170469_j84043920048708_1_alg».proof.Proof.Gen.ReferenceIdeal.Run
import proofs.«170469_j84043920048708_1_alg».proof.Proof.Gen.ReferenceIdeal.Read
import proofs.«170469_j84043920048708_1_alg».proof.Proof.Spec
import Idealize.ShloMosaic.Lib.ValueIdx
import Idealize.ShloMosaic.Lib.ValueIdxRank1
import Idealize.ShloMosaic.Lib.Pipeline.Value
import Idealize.ShloMosaic.PureOps.Reduce
import Idealize.ShloMosaic.PureOps.Ideal.Laws

/- The reference program's result, stage by stage, is the closed form `Cert.Spec.referenceValue`: the two clouds scaled by
   80, the matrix of clamped squared distances between their rows, its row minima and its column minima, the mean of
   each over the 8192 rows, the two means added, and the mean over the 2 batches. -/

noncomputable section

namespace Cert.ReferenceIdeal.RefValue

open Cert.ReferenceIdeal Cert.ReferenceIdeal.Gen Idealize.ShloMosaic Idealize.ShloMosaic.ValueIdx
open Cert.ReferenceIdeal.Read

/-! ## The literals the program spells, as extended reals -/

/-- The word of `+inf` denotes `⊤`. -/
theorem ofBits_inf : Ideal.ofBits .f32 0x7F800000#32 = (⊤ : EReal) := by
  simp [Ideal.ofBits, Ideal.ieee]

/-- The word of `80.0` denotes the real `80`. -/
theorem ofBits_80 : Ideal.ofBits .f32 0x42A00000#32 = ((80 : ℝ) : EReal) := by
  simp [Ideal.ofBits, Ideal.ieee, -EReal.coe_mul]; norm_num

/-- The word of `8192.0` denotes the real `8192`. -/
theorem ofBits_8192 : Ideal.ofBits .f32 0x46000000#32 = ((8192 : ℝ) : EReal) := by
  simp [Ideal.ofBits, Ideal.ieee, -EReal.coe_mul]; norm_num

/-- The word of `2.0` denotes the real `2` (used for the last divisor only). -/
theorem ofBits_2 : Ideal.ofBits .f32 0x40000000#32 = ((2 : ℝ) : EReal) := by
  simp [Ideal.ofBits, Ideal.ieee, -EReal.coe_mul]; norm_num

/-! ## The clouds -/

/-- An array of 2 × 8192 × 3 extended reals, read by coordinates. -/
abbrev cloud (A : (⟨S2x8192x3, .f32⟩ : BufTy).Contents (Elt Ideal)) : Cert.Spec.Cloud := fun b r d => A (ix3 b r d)

/-- The same cloud with every coordinate multiplied by 80. -/
abbrev scaled (A : (⟨S2x8192x3, .f32⟩ : BufTy).Contents (Elt Ideal)) : Cert.Spec.Cloud :=
  Cert.Spec.scale ((80 : ℝ) : EReal) (cloud A)

/-- The doubling factor, kept as the word the program spells. -/
abbrev two : EReal := Ideal.ofBits .f32 0x40000000#32

/-! ## The scaled coordinates, the squared norms and the inner products -/

theorem v1_at (A : (⟨S2x8192x3, .f32⟩ : BufTy).Contents (Elt Ideal)) (b : Fin 2) (r : Fin 8192) (d : Fin 3) :
    val_main_v1 (F := Ideal) A (ix3 b r d) = scaled A b r d := by
  rw [val_main_v1_apply, val_main_v0_apply, val_main_cst_apply, Ideal.mulf_def, Ideal.ofBits_def, ofBits_80]
  rfl

theorem v3_at (B : (⟨S2x8192x3, .f32⟩ : BufTy).Contents (Elt Ideal)) (b : Fin 2) (r : Fin 8192) (d : Fin 3) :
    val_main_v3 (F := Ideal) B (ix3 b r d) = scaled B b r d := by
  rw [val_main_v3_apply, val_main_v2_apply, val_main_cst_0_apply, Ideal.mulf_def, Ideal.ofBits_def, ofBits_80]
  rfl

/-- The first cloud's squared norms. -/
theorem v5_at (A : (⟨S2x8192x3, .f32⟩ : BufTy).Contents (Elt Ideal)) (b : Fin 2) (r : Fin 8192) :
    val_main_v5 (F := Ideal) A (ix2 b r) = Cert.Spec.sqNorm (scaled A) b r := by
  rw [val_main_v5_apply, val_main_cst_1_apply, Ideal.ofBits_def, Ideal.ofBits_zero_f32, zero_add]
  unfold Cert.Spec.sqNorm
  refine Finset.sum_congr rfl fun d _ => ?_
  rw [val_main_v4_apply, Ideal.mulf_def,
    show idx_main_v5 (ix2 b r) d = ix3 b r d from
      funext fun a => Fin.ext (by match a with | ⟨0, _⟩ => rfl | ⟨1, _⟩ => rfl | ⟨2, _⟩ => rfl),
    v1_at]

/-- The second cloud's squared norms. -/
theorem v7_at (B : (⟨S2x8192x3, .f32⟩ : BufTy).Contents (Elt Ideal)) (b : Fin 2) (j : Fin 8192) :
    val_main_v7 (F := Ideal) B (ix2 b j) = Cert.Spec.sqNorm (scaled B) b j := by
  rw [val_main_v7_apply, val_main_cst_2_apply, Ideal.ofBits_def, Ideal.ofBits_zero_f32, zero_add]
  unfold Cert.Spec.sqNorm
  refine Finset.sum_congr rfl fun d _ => ?_
  rw [val_main_v6_apply, Ideal.mulf_def,
    show idx_main_v7 (ix2 b j) d = ix3 b j d from
      funext fun a => Fin.ext (by match a with | ⟨0, _⟩ => rfl | ⟨1, _⟩ => rfl | ⟨2, _⟩ => rfl),
    v3_at]

/-- The inner products of the rows of the first cloud with the rows of the second. -/
theorem v8_at (A B : (⟨S2x8192x3, .f32⟩ : BufTy).Contents (Elt Ideal)) (b : Fin 2) (r j : Fin 8192) :
    val_main_v8 (F := Ideal) A B (ix3 b r j) = Cert.Spec.inner (scaled A) (scaled B) b r j := by
  rw [val_main_v8_apply]
  unfold Cert.Spec.inner
  refine Finset.sum_congr rfl fun d _ => ?_
  rw [show lidx_main_v8 (ix3 b r j) d = ix3 b r d from
      funext fun a => Fin.ext (by match a with | ⟨0, _⟩ => rfl | ⟨1, _⟩ => rfl | ⟨2, _⟩ => rfl),
    show ridx_main_v8 (ix3 b r j) d = ix3 b j d from
      funext fun a => Fin.ext (by match a with | ⟨0, _⟩ => rfl | ⟨1, _⟩ => rfl | ⟨2, _⟩ => rfl),
    v1_at, v3_at]

/-! ## The matrix of clamped squared distances -/

theorem v18_at (A B : (⟨S2x8192x3, .f32⟩ : BufTy).Contents (Elt Ideal)) (b : Fin 2) (r j : Fin 8192) :
    val_main_v18 (F := Ideal) A B (ix3 b r j) = Cert.Spec.dist two (scaled A) (scaled B) b r j := by
  rw [val_main_v18_apply, val_main_v16_apply, val_main_v13_apply, val_main_v11_apply, val_main_v9_apply,
    val_main_v12_apply, val_main_v10_apply, val_main_v15_apply, val_main_v14_apply, val_main_cst_3_apply,
    val_main_v17_apply, val_main_cst_4_apply,
    show idx_main_v9 (idx_main_v11 (ix3 b r j)) = ix2 b r from
      funext fun a => Fin.ext (by match a with | ⟨0, _⟩ => rfl | ⟨1, _⟩ => rfl),
    show idx_main_v10 (idx_main_v12 (ix3 b r j)) = ix2 b j from
      funext fun a => Fin.ext (by match a with | ⟨0, _⟩ => rfl | ⟨1, _⟩ => rfl),
    v5_at, v7_at, v8_at, Ideal.maximumf_def, Ideal.subf_def, Ideal.addf_def, Ideal.mulf_def, Ideal.ofBits_def,
    Ideal.ofBits_def, Ideal.ofBits_zero_f32]
  rfl

/-! ## The row minima and the column minima -/

/-- Axis 2 (the key rows) of the distance matrix is dropped by the first minimum. -/
theorem reduces_d2 : S2x8192x8192.Reduces [2] S2x8192 := by decide

/-- Axis 1 (the query rows) of the distance matrix is dropped by the second minimum. -/
theorem reduces_d1 : S2x8192x8192.Reduces [1] S2x8192 := by decide

/-- The matrix index over `(b, r)` whose dropped coordinate, the key row, is `k`. -/
theorem lift_d2 (b : Fin 2) (r : Fin 8192) (k : Fin (S2x8192x8192.size 2)) :
    reduces_d2.lift (ix2 b r) k = ix3 b r (⟨k.val, k.isLt⟩ : Fin 8192) :=
  funext fun c => Fin.ext (by match c with | ⟨0, _⟩ => rfl | ⟨1, _⟩ => rfl | ⟨2, _⟩ => rfl)

/-- The matrix index over `(b, j)` whose dropped coordinate, the query row, is `k`. -/
theorem lift_d1 (b : Fin 2) (j : Fin 8192) (k : Fin (S2x8192x8192.size 1)) :
    reduces_d1.lift (ix2 b j) k = ix3 b (⟨k.val, k.isLt⟩ : Fin 8192) j :=
  funext fun c => Fin.ext (by match c with | ⟨0, _⟩ => rfl | ⟨1, _⟩ => rfl | ⟨2, _⟩ => rfl)

/-- The least entry of each row of the distance matrix. -/
theorem v19_at (A B : (⟨S2x8192x3, .f32⟩ : BufTy).Contents (Elt Ideal)) (b : Fin 2) (r : Fin 8192) :
    val_main_v19 (F := Ideal) A B (ix2 b r) = Cert.Spec.nearest two (scaled A) (scaled B) b r := by
  unfold val_main_v19
  rw [Host.reduce_eq_fold_single FloatOps.minimumf _ _ reducesTo_S2x8192x8192_S2x8192_d2 reduces_d2 h_S_,
    val_main_cst_5_apply, Ideal.ofBits_def, ofBits_inf]
  have hf : (val_main_v18 (F := Ideal) A B ∘ reduces_d2.lift (ix2 b r))
      = fun j : Fin 8192 => Cert.Spec.dist two (scaled A) (scaled B) b r j :=
    funext fun k => by
      show val_main_v18 (F := Ideal) A B (reduces_d2.lift (ix2 b r) k) = _
      rw [lift_d2, v18_at]
      rfl
  exact congrArg (fun f => Finset.fold min (⊤ : EReal) f (Finset.univ : Finset (Fin 8192))) hf

/-- The least entry of each column of the distance matrix. -/
theorem v20_at (A B : (⟨S2x8192x3, .f32⟩ : BufTy).Contents (Elt Ideal)) (b : Fin 2) (j : Fin 8192) :
    val_main_v20 (F := Ideal) A B (ix2 b j) = Cert.Spec.nearestCol two (scaled A) (scaled B) b j := by
  unfold val_main_v20
  rw [Host.reduce_eq_fold_single FloatOps.minimumf _ _ reducesTo_S2x8192x8192_S2x8192_d1 reduces_d1 h_S_,
    val_main_cst_6_apply, Ideal.ofBits_def, ofBits_inf]
  have hf : (val_main_v18 (F := Ideal) A B ∘ reduces_d1.lift (ix2 b j))
      = fun r : Fin 8192 => Cert.Spec.dist two (scaled A) (scaled B) b r j :=
    funext fun k => by
      show val_main_v18 (F := Ideal) A B (reduces_d1.lift (ix2 b j) k) = _
      rw [lift_d1, v18_at]
      rfl
  exact congrArg (fun f => Finset.fold min (⊤ : EReal) f (Finset.univ : Finset (Fin 8192))) hf

/-! ## The means -/

/-- The row minima summed over the rows of a batch. -/
theorem v21_at (A B : (⟨S2x8192x3, .f32⟩ : BufTy).Contents (Elt Ideal)) (b : Fin 2) :
    val_main_v21 (F := Ideal) A B (ix1 b) = ∑ r : Fin 8192, Cert.Spec.nearest two (scaled A) (scaled B) b r := by
  rw [val_main_v21_apply, val_main_cst_7_apply, Ideal.ofBits_def, Ideal.ofBits_zero_f32, zero_add]
  refine Finset.sum_congr rfl fun r _ => ?_
  rw [show idx_main_v21 (ix1 b) r = ix2 b r from
      funext fun a => Fin.ext (by match a with | ⟨0, _⟩ => rfl | ⟨1, _⟩ => rfl),
    v19_at]

/-- The column minima summed over the columns of a batch. -/
theorem v24_at (A B : (⟨S2x8192x3, .f32⟩ : BufTy).Contents (Elt Ideal)) (b : Fin 2) :
    val_main_v24 (F := Ideal) A B (ix1 b) = ∑ j : Fin 8192, Cert.Spec.nearestCol two (scaled A) (scaled B) b j := by
  rw [val_main_v24_apply, val_main_cst_9_apply, Ideal.ofBits_def, Ideal.ofBits_zero_f32, zero_add]
  refine Finset.sum_congr rfl fun j _ => ?_
  rw [show idx_main_v24 (ix1 b) j = ix2 b j from
      funext fun a => Fin.ext (by match a with | ⟨0, _⟩ => rfl | ⟨1, _⟩ => rfl),
    v20_at]

/-- The mean of the row minima of a batch: the division by 8192 is the product with its reciprocal. -/
theorem v23_at (A B : (⟨S2x8192x3, .f32⟩ : BufTy).Contents (Elt Ideal)) (b : Fin 2) :
    val_main_v23 (F := Ideal) A B (ix1 b)
      = (∑ r : Fin 8192, Cert.Spec.nearest two (scaled A) (scaled B) b r) * ((1 / 8192 : ℝ) : EReal) := by
  rw [val_main_v23_apply, val_main_v22_apply, val_main_cst_8_apply, Ideal.hostDivf_def, Ideal.ofBits_def, ofBits_8192,
    Ideal.div_coe (by norm_num : (8192 : ℝ) ≠ 0), v21_at]

/-- The mean of the column minima of a batch. -/
theorem v26_at (A B : (⟨S2x8192x3, .f32⟩ : BufTy).Contents (Elt Ideal)) (b : Fin 2) :
    val_main_v26 (F := Ideal) A B (ix1 b)
      = (∑ j : Fin 8192, Cert.Spec.nearestCol two (scaled A) (scaled B) b j) * ((1 / 8192 : ℝ) : EReal) := by
  rw [val_main_v26_apply, val_main_v25_apply, val_main_cst_10_apply, Ideal.hostDivf_def, Ideal.ofBits_def, ofBits_8192,
    Ideal.div_coe (by norm_num : (8192 : ℝ) ≠ 0), v24_at]

/-- The two means of a batch, added. -/
theorem v27_at (A B : (⟨S2x8192x3, .f32⟩ : BufTy).Contents (Elt Ideal)) (b : Fin 2) :
    val_main_v27 (F := Ideal) A B (ix1 b)
      = (∑ r : Fin 8192, Cert.Spec.nearest two (scaled A) (scaled B) b r) * ((1 / 8192 : ℝ) : EReal)
        + (∑ j : Fin 8192, Cert.Spec.nearestCol two (scaled A) (scaled B) b j) * ((1 / 8192 : ℝ) : EReal) := by
  rw [val_main_v27_apply, Ideal.addf_def, v23_at, v26_at]

/-- The sum over the two batches. -/
theorem v28_at (A B : (⟨S2x8192x3, .f32⟩ : BufTy).Contents (Elt Ideal)) (i : S_.Idx) :
    val_main_v28 (F := Ideal) A B i
      = ∑ b : Fin 2, ((∑ r : Fin 8192, Cert.Spec.nearest two (scaled A) (scaled B) b r) * ((1 / 8192 : ℝ) : EReal)
          + (∑ j : Fin 8192, Cert.Spec.nearestCol two (scaled A) (scaled B) b j) * ((1 / 8192 : ℝ) : EReal)) := by
  rw [val_main_v28_apply, val_main_cst_11_apply, Ideal.ofBits_def, Ideal.ofBits_zero_f32, zero_add,
    ← Equiv.sum_comp (idxEquiv1 (n := 2)).symm]
  exact Finset.sum_congr rfl fun b _ => v27_at A B b

/-- The last division, by the literal 2, is the product with one half. -/
theorem v29_at (A B : (⟨S2x8192x3, .f32⟩ : BufTy).Contents (Elt Ideal)) (i : S_.Idx) :
    val_main_v29 (F := Ideal) A B i = val_main_v28 (F := Ideal) A B i * ((1 / 2 : ℝ) : EReal) := by
  rw [val_main_v29_apply, val_main_cst_12_apply, Ideal.hostDivf_def, Ideal.ofBits_def, ofBits_2,
    Ideal.div_coe (by norm_num : (2 : ℝ) ≠ 0)]

/-! ## The result -/

/-- The reference's result is the closed form: the mean, over the batch, of the mean least distance from each row of
    the first scaled cloud to the second plus the mean least distance from each row of the second to the first, the
    latter taken as column minima of the one distance matrix. -/
theorem result_eq (A B : (⟨S2x8192x3, .f32⟩ : BufTy).Contents (Elt Ideal)) :
    Cert.ReferenceIdeal.Read.val_main_v29 (F := Ideal) A B
      = fun _ => Cert.Spec.referenceValue (Ideal.ofBits .f32 0x40000000#32)
          (fun b r d => A (ix3 b r d)) (fun b r d => B (ix3 b r d)) := by
  funext i
  rw [v29_at, v28_at]
  rfl

end Cert.ReferenceIdeal.RefValue

end
-- ==== Proof.Bridge.lean ====
/- The certificate's one law, as pure mathematics over the extended reals.

   Scaling every coordinate of both clouds by `80` multiplies each squared norm and each inner product by
   `80 · 80 = 6400`, hence each clamped squared distance by `6400`: multiplication by a positive real is monotone,
   fixes `0` and `⊤`, so it passes through `max · 0` and through the least entry of a row; and multiplication by a
   nonnegative real distributes over sums of extended reals whatever their terms, so it passes through the means.
   The reference's second direction, the least entry of each column of the one distance matrix, is the least entry of
   the corresponding row of the transposed matrix, and the clamped squared distance is symmetric in its two points. -/
import proofs.«170469_j84043920048708_1_alg».proof.Proof.Spec
import Mathlib.Data.EReal.Operations
import Mathlib.Data.EReal.Inv
import Mathlib.Data.Finset.Fold
import Mathlib.Order.MinMax
import Mathlib.Algebra.BigOperators.Group.Finset.Basic

noncomputable section

namespace Cert.Spec

/-! ### Multiplication by a nonnegative finite factor -/

/-- A nonnegative finite factor distributes over a finite sum of extended reals, whatever the terms. -/
theorem sum_mul_of_nonneg {ι : Type*} (s : Finset ι) (f : ι → EReal) {c : EReal} (h0 : 0 ≤ c) (ht : c ≠ ⊤) :
    (∑ i ∈ s, f i) * c = ∑ i ∈ s, f i * c := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- Multiplication on the right by a nonnegative factor is monotone. -/
theorem mul_right_mono {c : EReal} (h0 : 0 ≤ c) : Monotone fun t : EReal => t * c :=
  fun _ _ h => mul_le_mul_of_nonneg_right h h0

/-- A nonnegative factor passes through `max`. -/
theorem max_mul_of_nonneg (a b : EReal) {c : EReal} (h0 : 0 ≤ c) : max a b * c = max (a * c) (b * c) :=
  (mul_right_mono h0).map_max

/-- A nonnegative factor passes through `min`. -/
theorem min_mul_of_nonneg (a b : EReal) {c : EReal} (h0 : 0 ≤ c) : min a b * c = min (a * c) (b * c) :=
  (mul_right_mono h0).map_min

/-- A positive factor passes through the least value of a finite family (the least value of none is `⊤`, which a
    positive factor fixes). -/
theorem fold_min_mul {ι : Type*} (s : Finset ι) (f : ι → EReal) {c : EReal} (hpos : 0 < c) :
    (s.fold min ⊤ fun i => f i * c) = s.fold min ⊤ f * c := by
  have h := Finset.fold_hom (op := min) (op' := min) (s := s) (b := (⊤ : EReal)) (f := f)
    (m := fun t : EReal => t * c) (fun a b => min_mul_of_nonneg a b hpos.le)
  simpa only [EReal.top_mul_of_pos hpos] using h

/-! ### The scaled clouds -/

section Scaled

variable (two k K : EReal) (hk : k * k = K) (hpos : 0 < K) (ht : K ≠ ⊤) (x y : Cloud) (b : Fin 2)

include hk hpos ht

/-- Scaling the points by `k` multiplies a squared norm by `k · k`. -/
theorem sqNorm_scale (r : Fin 8192) : sqNorm (scale k x) b r = sqNorm x b r * K := by
  unfold sqNorm scale
  rw [sum_mul_of_nonneg _ _ hpos.le ht]
  exact Finset.sum_congr rfl fun d _ => by rw [← hk]; exact mul_mul_mul_comm _ _ _ _

/-- Scaling both clouds by `k` multiplies an inner product by `k · k`. -/
theorem inner_scale (r j : Fin 8192) : Cert.Spec.inner (scale k x) (scale k y) b r j = Cert.Spec.inner x y b r j * K := by
  unfold Cert.Spec.inner scale
  rw [sum_mul_of_nonneg _ _ hpos.le ht]
  exact Finset.sum_congr rfl fun d _ => by rw [← hk]; exact mul_mul_mul_comm _ _ _ _

/-- Scaling both clouds by `k` multiplies a clamped squared distance by `k · k`. -/
theorem dist_scale (r j : Fin 8192) : dist two (scale k x) (scale k y) b r j = dist two x y b r j * K := by
  unfold dist
  rw [sqNorm_scale k K hk hpos ht x b r, sqNorm_scale k K hk hpos ht y b j, inner_scale k K hk hpos ht x y b r j,
    max_mul_of_nonneg _ _ hpos.le, zero_mul]
  congr 1
  rw [sub_eq_add_neg, sub_eq_add_neg, EReal.right_distrib_of_nonneg_of_ne_top hpos.le ht,
    EReal.right_distrib_of_nonneg_of_ne_top hpos.le ht, neg_mul, mul_assoc]

/-- The least distance from a row scales with the distances. -/
theorem nearest_scale (r : Fin 8192) : nearest two (scale k x) (scale k y) b r = nearest two x y b r * K := by
  unfold nearest
  exact (Finset.fold_congr fun j _ => dist_scale two k K hk hpos ht x y b r j).trans
    (fold_min_mul Finset.univ _ hpos)

/-- The least distance to a row scales with the distances. -/
theorem nearestCol_scale (j : Fin 8192) :
    nearestCol two (scale k x) (scale k y) b j = nearestCol two x y b j * K := by
  unfold nearestCol
  exact (Finset.fold_congr fun r _ => dist_scale two k K hk hpos ht x y b r j).trans
    (fold_min_mul Finset.univ _ hpos)

end Scaled

/-! ### Columns of the matrix are rows of its transpose -/

/-- The inner product is symmetric. -/
theorem inner_symm (x y : Cloud) (b : Fin 2) (r j : Fin 8192) :
    Cert.Spec.inner x y b r j = Cert.Spec.inner y x b j r := by
  unfold Cert.Spec.inner
  exact Finset.sum_congr rfl fun d _ => mul_comm _ _

/-- The clamped squared distance is symmetric. -/
theorem dist_symm (two : EReal) (x y : Cloud) (b : Fin 2) (r j : Fin 8192) :
    dist two x y b r j = dist two y x b j r := by
  unfold dist
  rw [add_comm (sqNorm x b r), inner_symm x y b r j]

/-- A column minimum of the distance matrix is a row minimum of the transposed one. -/
theorem nearestCol_eq_nearest (two : EReal) (x y : Cloud) (b : Fin 2) (j : Fin 8192) :
    nearestCol two x y b j = nearest two y x b j := by
  unfold nearestCol nearest
  exact Finset.fold_congr fun r _ => dist_symm two x y b r j

/-! ### The means -/

/-- A nonnegative finite factor on every entry of both tables comes out of the mean. -/
theorem mean2_mul (f g : Fin 2 → Fin 8192 → EReal) {c : EReal} (h0 : 0 ≤ c) (ht : c ≠ ⊤) :
    mean2 (fun b r => f b r * c) (fun b r => g b r * c) = mean2 f g * c := by
  unfold mean2
  rw [mul_right_comm _ _ c, sum_mul_of_nonneg _ _ h0 ht]
  congr 1
  refine Finset.sum_congr rfl fun b _ => ?_
  rw [← sum_mul_of_nonneg _ _ h0 ht, ← sum_mul_of_nonneg _ _ h0 ht,
    EReal.right_distrib_of_nonneg_of_ne_top h0 ht, mul_right_comm _ c, mul_right_comm _ c]

/-! ### The law -/

/-- `80 · 80 = 6400`, in the extended reals. -/
theorem eighty_mul_eighty : ((80 : ℝ) : EReal) * ((80 : ℝ) : EReal) = ((6400 : ℝ) : EReal) := by
  rw [← EReal.coe_mul]; norm_num

/-- The reference's number is the kernel's. -/
theorem value_eq (two : EReal) (x y : Cloud) : referenceValue two x y = kernelValue two x y := by
  have hpos : (0 : EReal) < ((6400 : ℝ) : EReal) := EReal.coe_pos.2 (by norm_num)
  have ht : ((6400 : ℝ) : EReal) ≠ ⊤ := EReal.coe_ne_top _
  have hA : nearest two (scale ((80 : ℝ) : EReal) x) (scale ((80 : ℝ) : EReal) y)
      = fun b r => nearest two x y b r * ((6400 : ℝ) : EReal) :=
    funext fun b => funext fun r => nearest_scale two _ _ eighty_mul_eighty hpos ht x y b r
  have hB : nearestCol two (scale ((80 : ℝ) : EReal) x) (scale ((80 : ℝ) : EReal) y)
      = fun b j => nearest two y x b j * ((6400 : ℝ) : EReal) :=
    funext fun b => funext fun j => by
      rw [nearestCol_scale two _ _ eighty_mul_eighty hpos ht x y b j, nearestCol_eq_nearest]
  unfold referenceValue kernelValue
  rw [hA, hB]
  exact mean2_mul _ _ hpos.le ht

end Cert.Spec

end
-- ==== Proof.lean ====
/- The certificate of the chamfer kernel against its reference.

   The kernel finds, for every point of each of two clouds, the least clamped squared distance to the other cloud — one
   pallas_call per direction, each a 16 × 8 grid keeping a running minimum in a scratch buffer along its rows of 8 —,
   averages, and multiplies by 6400. The reference scales the points by 80 first and takes both directions from one
   distance matrix. Over the extended reals the two results are one number: multiplication by 6400 = 80 · 80 is monotone,
   fixes 0 and +∞, and distributes over sums, so it passes through the clamp, the minima and the means (Bridge).

   Frames: each program's two regions are certified point by point (the body in its three cases, the scratch's contents
   named between points) and composed with the host stretch; the reference is host operations only. The idealization
   rewrote nothing, so `preserves` is trivial. The value: the kernel's output arrays are read off the frame run by the
   universal property of a least element (Ideal/Value0, Value1), the host's averaging in closed form (Ideal/Tail), the
   reference's run in closed form (RefValue), and the law joins them. -/
import proofs.«170469_j84043920048708_1_alg».proof.Defs
import proofs.«170469_j84043920048708_1_alg».proof.Proof.Gen.Kernel
import proofs.«170469_j84043920048708_1_alg».proof.Proof.Gen.KernelIdeal
import proofs.«170469_j84043920048708_1_alg».proof.Proof.Gen.ReferenceIdeal
import proofs.«170469_j84043920048708_1_alg».proof.Proof.Gen.Pre_finite_inputs
import proofs.«170469_j84043920048708_1_alg».proof.Proof.Gen.ReferenceIdeal.Run
import proofs.«170469_j84043920048708_1_alg».proof.Proof.Gen.ReferenceIdeal.Read
import proofs.«170469_j84043920048708_1_alg».proof.Proof.Bits.Run
import proofs.«170469_j84043920048708_1_alg».proof.Proof.Ideal.Result
import proofs.«170469_j84043920048708_1_alg».proof.Proof.RefValue
import proofs.«170469_j84043920048708_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the two clouds, with the same number: the kernel's value and the
    reference's are the specification's two forms, which the scaling law identifies. -/
theorem algebraic : Cert.algebraic_KernelIdeal_ReferenceIdeal := by
  intro m ρ m' ρ' _ hagree
  refine ⟨fun c => fun _ => Cert.Spec.kernelValue Cert.KernelIdeal.Hand.twoW (Cert.KernelIdeal.Hand.cloudP m c) (Cert.KernelIdeal.Hand.cloudG m c),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq, (hagree c).1, (hagree c).2]
  funext _
  exact Cert.Spec.value_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
